-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1000000x128 : Shape := ⟨2, ![1000000, 128]⟩
abbrev S119 : Shape := ⟨1, ![119]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1000000 : Shape := ⟨1, ![1000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S119 : S_.BroadcastsInDim S119 (![] : Fin 0 → Fin S119.rank)
  reducesTo_S119_S_d0 : S119.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg8 : IVec S1000000 32) (main_v33 : IVec S_ 1) : IVec S_ 1 :=
  let main_c_12 : IVec S_ 32 := constantI S_ 32 0#32
  let main_v34 : IVec S1000000 32 := broadcastInDim S1000000 ![] bcast_S_S1000000 main_c_12
  let main_v35 : IVec S1000000 1 := cmpi .sge main_arg8 main_v34
  let main_c_13 : IVec S_ 1 := constantI S_ 1 1#1
  let main_v36 : IVec S_ 1 := (fun x v => Host.reduce IntOp.andi x v reducesTo_S1000000_S_d0 h_S_) main_v35 main_c_13
  let main_v37 : IVec S_ 1 := andi main_v33 main_v36
  main_v37

def fn_part1 {F : FTy → Type} [FloatOps F] (main_arg4 : FVec F S64 .f32) (main_arg5 : FVec F S1x64 .f32) (main_arg6 : FVec F S1 .f32) (main_arg8 : IVec S1000000 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S1000000x3 .f32) (main_arg1 : FVec F S1000000x128 .f32) (main_arg2 : FVec F S119 .f32) (main_arg3 : FVec F S64x128 .f32) (main_arg4 : FVec F S64 .f32) (main_arg5 : FVec F S1x64 .f32) (main_arg6 : FVec F S1 .f32) (main_arg7 : IVec S1000000 32) (main_arg8 : IVec S1000000 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S119 .f32 := Host.absf main_arg2
  let main_cst_2 : FVec F S_ .f32 := constant S_ .f32 0x7F800000#32
  let main_v10 : FVec F S119 .f32 := broadcastInDim S119 ![] bcast_S_S119 main_cst_2
  let main_v11 : IVec S119 1 := cmpf .olt main_v9 main_v10
  let main_c_3 : IVec S_ 1 := constantI S_ 1 1#1
  let main_v12 : IVec S_ 1 := (fun x v => Host.reduce IntOp.andi x v reducesTo_S119_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg8 main_v13 main_v16
-- ==== Kernel.lean ====
abbrev S1000000x3 : Shape := ⟨2, ![1000000, 3]⟩
abbrev S1000000x128 : Shape := ⟨2, ![1000000, 128]⟩
abbrev S119 : Shape := ⟨1, ![119]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1000000 : Shape := ⟨1, ![1000000]⟩
abbrev S_ : Shape := ⟨0, ![]⟩
abbrev S128 : Shape := ⟨1, ![128]⟩
abbrev S1x128 : Shape := ⟨2, ![1, 128]⟩
abbrev S1000000x1 : Shape := ⟨2, ![1000000, 1]⟩
abbrev S128x64 : Shape := ⟨2, ![128, 64]⟩
abbrev S64x1 : Shape := ⟨2, ![64, 1]⟩
abbrev S1x1 : Shape := ⟨2, ![1, 1]⟩
abbrev S1000000x4 : Shape := ⟨2, ![1000000, 4]⟩
abbrev S4000x1 : Shape := ⟨2, ![4000, 1]⟩
abbrev S4000x3 : Shape := ⟨2, ![4000, 3]⟩
abbrev S4000x4 : Shape := ⟨2, ![4000, 4]⟩
abbrev S4000x128 : Shape := ⟨2, ![4000, 128]⟩
abbrev S4000 : Shape := ⟨1, ![4000]⟩
abbrev S8192x3 : Shape := ⟨2, ![8192, 3]⟩
abbrev S8192x1 : Shape := ⟨2, ![8192, 1]⟩
abbrev S8000x128 : Shape := ⟨2, ![8000, 128]⟩
abbrev S8000x1 : Shape := ⟨2, ![8000, 1]⟩
abbrev S8000x64 : Shape := ⟨2, ![8000, 64]⟩

abbrev nBuf : Space → Nat
  | .hbm => 60
  | .vmem => 17
  | .smem => 0
  | _ => 0

abbrev bufTy : (tb : Table) → Fin (tcTables nBuf tb) → BufTy
  | .hbm, ⟨0, _⟩ => ⟨S1000000x3, .f32⟩
  | .hbm, ⟨1, _⟩ => ⟨S1000000x128, .f32⟩
  | .hbm, ⟨2, _⟩ => ⟨S119, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .f32⟩
  | .hbm, ⟨10, _⟩ => ⟨S128, .f32⟩
  | .hbm, ⟨11, _⟩ => ⟨S_, .i32⟩
  | .hbm, ⟨12, _⟩ => ⟨S1, .i32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S128x64, .f32⟩
  | .hbm, ⟨25, _⟩ => ⟨S1x64, .f32⟩
  | .hbm, ⟨26, _⟩ => ⟨S64x1, .f32⟩
  | .hbm, ⟨27, _⟩ => ⟨S1x1, .f32⟩
  | .hbm, ⟨28, _⟩ => ⟨S1000000x4, .f32⟩
  | .hbm, ⟨29, _⟩ => ⟨S1000000x1, .f32⟩
  | .hbm, ⟨30, _⟩ => ⟨S1000000x3, .f32⟩
  | .hbm, ⟨31, _⟩ => ⟨S_, .f32⟩
  | .hbm, ⟨32, _⟩ => ⟨S8192x3, .f32⟩
  | .hbm, ⟨33, _⟩ => ⟨S1000000x1, .i32⟩
  | .hbm, ⟨34, _⟩ => ⟨S8192x3, .f32⟩
  | .hbm, ⟨35, _⟩ => ⟨S_, .f32⟩
  | .hbm, ⟨36, _⟩ => ⟨S8192x1, .f32⟩
  | .hbm, ⟨37, _⟩ => ⟨S1000000x1, .i32⟩
  | .hbm, ⟨38, _⟩ => ⟨S8192x1, .f32⟩
  | .hbm, ⟨39, _⟩ => ⟨S8192x3, .f32⟩
  | .hbm, ⟨40, _⟩ => ⟨S8192x3, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x3, .f32⟩
  | .hbm, ⟨50, _⟩ => ⟨S1000000x3, .f32⟩
  | .hbm, ⟨51, _⟩ => ⟨S1000000x3, .f32⟩
  | .hbm, ⟨52, _⟩ => ⟨S_, .f32⟩
  | .hbm, ⟨53, _⟩ => ⟨S1000000, .f32⟩
  | .hbm, ⟨54, _⟩ => ⟨S1000000x1, .f32⟩
  | .hbm, ⟨55, _⟩ => ⟨S1000000x1, .f32⟩
  | .hbm, ⟨56, _⟩ => ⟨S_, .f32⟩
  | .hbm, ⟨57, _⟩ => ⟨S8192x1, .f32⟩
  | .hbm, ⟨58, _⟩ => ⟨S1000000x1, .i32⟩
  | .hbm, ⟨59, _⟩ => ⟨S8192x1, .f32⟩
  | .local _ .vmem, ⟨0, _⟩ => ⟨S4000x1, .i32⟩
  | .local _ .vmem, ⟨1, _⟩ => ⟨S4000x1, .i32⟩
  | .local _ .vmem, ⟨2, _⟩ => ⟨S1x128, .f32⟩
  | .local _ .vmem, ⟨3, _⟩ => ⟨S4000x3, .f32⟩
  | .local _ .vmem, ⟨4, _⟩ => ⟨S4000x3, .f32⟩
  | .local _ .vmem, ⟨5, _⟩ => ⟨S4000x4, .f32⟩
  | .local _ .vmem, ⟨6, _⟩ => ⟨S4000x4, .f32⟩
  | .local _ .vmem, ⟨7, _⟩ => ⟨S8000x128, .f32⟩
  | .local _ .vmem, ⟨8, _⟩ => ⟨S8000x128, .f32⟩
  | .local _ .vmem, ⟨9, _⟩ => ⟨S8000x1, .f32⟩
  | .local _ .vmem, ⟨10, _⟩ => ⟨S8000x1, .f32⟩
  | .local _ .vmem, ⟨11, _⟩ => ⟨S128x64, .f32⟩
  | .local _ .vmem, ⟨12, _⟩ => ⟨S1x64, .f32⟩
  | .local _ .vmem, ⟨13, _⟩ => ⟨S64x1, .f32⟩
  | .local _ .vmem, ⟨14, _⟩ => ⟨S1x1, .f32⟩
  | .local _ .vmem, ⟨15, _⟩ => ⟨S8000x1, .f32⟩
  | .local _ .vmem, ⟨16, _⟩ => ⟨S8000x1, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S128 : S_.BroadcastsInDim S128 (![] : Fin 0 → Fin S128.rank)
  bcast_S_S1 : S_.BroadcastsInDim S1 (![] : Fin 0 → Fin S1.rank)
  shapeCasts_S128_S1x128 : S128.ShapeCasts S1x128
  bcast_S_S1000000 : S_.BroadcastsInDim S1000000 (![] : Fin 0 → Fin S1000000.rank)
  shapeCasts_S1000000_S1000000x1 : S1000000.ShapeCasts S1000000x1
  transposes_S64x128_S128x64_1_0 : S64x128.Transposes [1, 0] S128x64
  shapeCasts_S64_S1x64 : S64.ShapeCasts S1x64
  transposes_S1x64_S64x1_1_0 : S1x64.Transposes [1, 0] S64x1
  shapeCasts_S1_S1x1 : S1.ShapeCasts S1x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S4000x128_d1_w32 : S4000x128.Iotas .tc 32 [1]
  broadcasts_S4000x1_S4000x128 : S4000x1.Broadcasts S4000x128
  natLt_1_32 : 1 < 32
  broadcasts_S1x128_S4000x128 : S1x128.Broadcasts S4000x128
  reduces_S4000x128_S4000 : S4000x128.Reduces [1] S4000
  shapeCasts_S4000_S4000x1 : S4000.ShapeCasts S4000x1
  inb_S4000x3_S4000x3_0_0 : ∀ a, (![0, 0] : Fin 2 → Nat) a + S4000x3.size a ≤ S4000x3.size a
  h_S4000x3 : 0 < S4000x3.numel
  broadcasts_S4000x1_S4000x3 : S4000x1.Broadcasts S4000x3
  concatenates_S4000x1_S4000x3_S4000x4_d1 : Shape.Concatenates [S4000x1, S4000x3] S4000x4 1
  inb_S4000x4_S4000x4_0_0 : ∀ a, (![0, 0] : Fin 2 → Nat) a + S4000x4.size a ≤ S4000x4.size a
  h_S4000x4 : 0 < S4000x4.numel
  slices_S1000000x4_S1000000x1_0_0 : S1000000x4.Slices ![0, 0] S1000000x1
  slices_S1000000x4_S1000000x3_0_1 : S1000000x4.Slices ![0, 1] S1000000x3
  bcast_S_S8192x3 : S_.BroadcastsInDim S8192x3 (![] : Fin 0 → Fin S8192x3.rank)
  bcast_S1000000_S1000000x1_0 : S1000000.BroadcastsInDim S1000000x1 (![0] : Fin 1 → Fin S1000000x1.rank)
  bcast_S_S8192x1 : S_.BroadcastsInDim S8192x1 (![] : Fin 0 → Fin S8192x1.rank)
  bcast_S8192x1_S8192x3_0_1 : S8192x1.BroadcastsInDim S8192x3 (![0, 1] : Fin 2 → Fin S8192x3.rank)
  reducesTo_S1000000x3_S1000000_d1 : S1000000x3.ReducesTo [1] S1000000
  h_S_ : 0 < S_.numel
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  scatter_S128_S1_S119_0_n_0_0_wf : ScatterDims.WF S128 S1 S119 [0] [] [0] 0
  scatter_S8192x3_S1000000x1_S1000000x3_1_0_0_1_wf : ScatterDims.WF S8192x3 S1000000x1 S1000000x3 [1] [0] [0] 1
  scatter_S8192x1_S1000000x1_S1000000x1_1_0_0_1_wf : ScatterDims.WF S8192x1 S1000000x1 S1000000x1 [1] [0] [0] 1
  gather_S8192x3_S1000000x1_S1000000x3_1_0_n_n_0_1_13_wf : GatherDims.WF S8192x3 S1000000x1 S1000000x3 [1] [0] [] [0] [] 1 ![1, 3]
  dot_S8000x128_S128x64_S8000x64_1_0_0_1_n_n_wf : DotDims.WF S8000x128 S128x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S1000000x1.size a
  hwx0_0 : ∀ i : grid0.Coords, EltTy.bits .i32 = 32 ∨ (Rect.block (s := S1000000x1) S4000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S1000000x3.size a
  hwx0_2 : ∀ i : grid0.Coords, EltTy.bits .f32 = 32 ∨ (Rect.block (s := S1000000x3) S4000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x4.size a ≤ S1000000x4.size a
  hwx0_3 : ∀ i : grid0.Coords, EltTy.bits .f32 = 32 ∨ (Rect.block (s := S1000000x4) S4000x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x1.size a ≤ S1000000x1.size a
  hwx1_6 : ∀ i : grid1.Coords, EltTy.bits .f32 = 32 ∨ (Rect.block (s := S1000000x1) S8000x1.size (cc1_transform_6 i) (hinb1_6 i)).WholeWords (EltTy.packing .f32)

variable [Facts₀]

def scatter_S128_S1_S119_0_n_0_0 : ScatterDims S128 S1 S119 where
  updateWindowDims := [0]
  insertedWindowDims := []
  scatterDimsToOperandDims := [0]
  indexVectorDim := 0
  wf := scatter_S128_S1_S119_0_n_0_0_wf
def scatter_S8192x3_S1000000x1_S1000000x3_1_0_0_1 : ScatterDims S8192x3 S1000000x1 S1000000x3 where
  updateWindowDims := [1]
  insertedWindowDims := [0]
  scatterDimsToOperandDims := [0]
  indexVectorDim := 1
  wf := scatter_S8192x3_S1000000x1_S1000000x3_1_0_0_1_wf
def scatter_S8192x1_S1000000x1_S1000000x1_1_0_0_1 : ScatterDims S8192x1 S1000000x1 S1000000x1 where
  updateWindowDims := [1]
  insertedWindowDims := [0]
  scatterDimsToOperandDims := [0]
  indexVectorDim := 1
  wf := scatter_S8192x1_S1000000x1_S1000000x1_1_0_0_1_wf
def gather_S8192x3_S1000000x1_S1000000x3_1_0_n_n_0_1_13 : GatherDims S8192x3 S1000000x1 S1000000x3 where
  offsetDims := [1]
  collapsedSliceDims := [0]
  operandBatchingDims := []
  startIndicesBatchingDims := []
  startIndexMap := [0]
  indexVectorDim := 1
  sliceSizes := ![1, 3]
  wf := gather_S8192x3_S1000000x1_S1000000x3_1_0_n_n_0_1_13_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v5) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S8000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x3 : Shape := ⟨2, ![1000000, 3]⟩
abbrev S1000000x128 : Shape := ⟨2, ![1000000, 128]⟩
abbrev S119 : Shape := ⟨1, ![119]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S8192x3 : Shape := ⟨2, ![8192, 3]⟩
abbrev S8192x1 : Shape := ⟨2, ![8192, 1]⟩
abbrev S128x64 : Shape := ⟨2, ![128, 64]⟩
abbrev S1000000x64 : Shape := ⟨2, ![1000000, 64]⟩
abbrev S64x1 : Shape := ⟨2, ![64, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S1000000x128, .f32⟩
  | .hbm, ⟨2, _⟩ => ⟨S119, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000, .f32⟩
  | .hbm, ⟨18, _⟩ => ⟨S1000000x1, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S8192x3, .f32⟩
  | .hbm, ⟨23, _⟩ => ⟨S1000000x1, .i32⟩
  | .hbm, ⟨24, _⟩ => ⟨S8192x3, .f32⟩
  | .hbm, ⟨25, _⟩ => ⟨S_, .f32⟩
  | .hbm, ⟨26, _⟩ => ⟨S8192x1, .f32⟩
  | .hbm, ⟨27, _⟩ => ⟨S1000000x1, .i32⟩
  | .hbm, ⟨28, _⟩ => ⟨S8192x1, .f32⟩
  | .hbm, ⟨29, _⟩ => ⟨S8192x3, .f32⟩
  | .hbm, ⟨30, _⟩ => ⟨S8192x3, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x3, .f32⟩
  | .hbm, ⟨40, _⟩ => ⟨S1000000x3, .f32⟩
  | .hbm, ⟨41, _⟩ => ⟨S128x64, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S_, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S64x1, .f32⟩
  | .hbm, ⟨56, _⟩ => ⟨S1000000x1, .f32⟩
  | .hbm, ⟨57, _⟩ => ⟨S1x1, .f32⟩
  | .hbm, ⟨58, _⟩ => ⟨S1000000x1, .f32⟩
  | .hbm, ⟨59, _⟩ => ⟨S1000000x1, .f32⟩
  | .hbm, ⟨60, _⟩ => ⟨S1000000x3, .f32⟩
  | .hbm, ⟨61, _⟩ => ⟨S_, .f32⟩
  | .hbm, ⟨62, _⟩ => ⟨S1000000, .f32⟩
  | .hbm, ⟨63, _⟩ => ⟨S1000000x1, .f32⟩
  | .hbm, ⟨64, _⟩ => ⟨S1000000x1, .f32⟩
  | .hbm, ⟨65, _⟩ => ⟨S_, .f32⟩
  | .hbm, ⟨66, _⟩ => ⟨S8192x1, .f32⟩
  | .hbm, ⟨67, _⟩ => ⟨S1000000x1, .i32⟩
  | .hbm, ⟨68, _⟩ => ⟨S8192x1, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  bcast_S_S8192x3 : S_.BroadcastsInDim S8192x3 (![] : Fin 0 → Fin S8192x3.rank)
  bcast_S_S8192x1 : S_.BroadcastsInDim S8192x1 (![] : Fin 0 → Fin S8192x1.rank)
  bcast_S8192x1_S8192x3_0_1 : S8192x1.BroadcastsInDim S8192x3 (![0, 1] : Fin 2 → Fin S8192x3.rank)
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x3_S1000000_d1 : S1000000x3.ReducesTo [1] S1000000
  h_S_ : 0 < S_.numel
  gather_S119_S1000000x1_S1000000_n_0_n_n_0_1_1_wf : GatherDims.WF S119 S1000000x1 S1000000 [] [0] [] [0] [] 1 ![1]
  scatter_S8192x3_S1000000x1_S1000000x3_1_0_0_1_wf : ScatterDims.WF S8192x3 S1000000x1 S1000000x3 [1] [0] [0] 1
  scatter_S8192x1_S1000000x1_S1000000x1_1_0_0_1_wf : ScatterDims.WF S8192x1 S1000000x1 S1000000x1 [1] [0] [0] 1
  gather_S8192x3_S1000000x1_S1000000x3_1_0_n_n_0_1_13_wf : GatherDims.WF S8192x3 S1000000x1 S1000000x3 [1] [0] [] [0] [] 1 ![1, 3]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def gather_S119_S1000000x1_S1000000_n_0_n_n_0_1_1 : GatherDims S119 S1000000x1 S1000000 where
  offsetDims := []
  collapsedSliceDims := [0]
  operandBatchingDims := []
  startIndicesBatchingDims := []
  startIndexMap := [0]
  indexVectorDim := 1
  sliceSizes := ![1]
  wf := gather_S119_S1000000x1_S1000000_n_0_n_n_0_1_1_wf
def scatter_S8192x3_S1000000x1_S1000000x3_1_0_0_1 : ScatterDims S8192x3 S1000000x1 S1000000x3 where
  updateWindowDims := [1]
  insertedWindowDims := [0]
  scatterDimsToOperandDims := [0]
  indexVectorDim := 1
  wf := scatter_S8192x3_S1000000x1_S1000000x3_1_0_0_1_wf
def scatter_S8192x1_S1000000x1_S1000000x1_1_0_0_1 : ScatterDims S8192x1 S1000000x1 S1000000x1 where
  updateWindowDims := [1]
  insertedWindowDims := [0]
  scatterDimsToOperandDims := [0]
  indexVectorDim := 1
  wf := scatter_S8192x1_S1000000x1_S1000000x1_1_0_0_1_wf
def gather_S8192x3_S1000000x1_S1000000x3_1_0_n_n_0_1_13 : GatherDims S8192x3 S1000000x1 S1000000x3 where
  offsetDims := [1]
  collapsedSliceDims := [0]
  operandBatchingDims := []
  startIndicesBatchingDims := []
  startIndexMap := [0]
  indexVectorDim := 1
  sliceSizes := ![1, 3]
  wf := gather_S8192x3_S1000000x1_S1000000x3_1_0_n_n_0_1_13_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Words.lean ====
/-
  Word and extended-real facts the value proof rests on, stated over no program.

  * A 32-bit word that is non-negative when read signed is left alone by the reference's wrap of negative
    indices (`a < 0 ? a + 119 : a`), and the kernel's clip of it into [0, 118] has, read as a natural number,
    the value `min a 118`: the very position at which a 119-entry table is read when a gather clamps the
    start index `a` into the table.
  * A sum over 128 lanes of `[lane = c] · p lane` is `p c`: one lane carries the factor one, the others
    the factor zero, and `0 · x = 0`, `1 · x = x` hold for every extended real `x`, the infinities included.
-/
import Idealize.ShloMosaic.PureOps.Ideal
import Idealize.ShloMosaic.Lib.StableHlo.Predicate

namespace Cert.Hand.Words

open Idealize.ShloMosaic

/-- The signed comparison `a ≥ 0` holding means the signed reading of `a` is non-negative. -/
theorem toInt_nonneg_of_sge (a : BitVec 32) (h : IntOp.cmpi .sge a 0#32 = 1#1) : 0 ≤ a.toInt := by
  unfold IntOp.cmpi at h
  rw [StableHlo.Predicate.ofBool_eq_one_iff] at h
  simp only [BitVec.sle, decide_eq_true_eq] at h
  have h0 : (0#32 : BitVec 32).toInt = 0 := by decide
  omega

/-- A word non-negative as a signed number is its natural value, below 2³¹. -/
theorem toNat_of_nonneg (a : BitVec 32) (h : 0 ≤ a.toInt) : a.toInt = a.toNat ∧ a.toNat < 2 ^ 31 := by
  have h32 := a.isLt
  unfold BitVec.toInt at h ⊢
  split at h <;> rename_i hc
  · exact ⟨by rw [if_pos hc], by omega⟩
  · rw [if_neg hc]; omega

/-- The reference's wrap of a negative index does nothing to a non-negative one. -/
theorem wrap_of_nonneg (a : BitVec 32) (h : 0 ≤ a.toInt) :
    Scalar.select (IntOp.cmpi .slt a 0#32) (IntOp.addi a 119#32) a = a := by
  have hc : IntOp.cmpi .slt a 0#32 = 0#1 := by
    unfold IntOp.cmpi
    have h0 : (0#32 : BitVec 32).toInt = 0 := by decide
    have : a.slt 0#32 = false := by
      simp only [BitVec.slt, h0, decide_eq_false_iff_not]; omega
    rw [this]; rfl
  rw [hc]
  exact if_neg (by decide)

/-- The clip of a non-negative word into [0, 118], as a natural number, is `min a 118`. -/
theorem clip_toNat (a : BitVec 32) (h : 0 ≤ a.toInt) :
    (IntOp.minsi 118#32 (IntOp.maxsi 0#32 a)).toNat = min a.toInt.toNat 118 := by
  obtain ⟨hi, hlt⟩ := toNat_of_nonneg a h
  have h0 : (0#32 : BitVec 32).toInt = 0 := by decide
  have h118 : (118#32 : BitVec 32).toInt = 118 := by decide
  have hmax : IntOp.maxsi 0#32 a = a := by
    unfold IntOp.maxsi
    split <;> rename_i hc
    · simp only [BitVec.slt, h0, decide_eq_true_eq] at hc
      apply BitVec.eq_of_toNat_eq
      have : a.toNat = 0 := by omega
      rw [this]; rfl
    · rfl
  rw [hmax]
  unfold IntOp.minsi
  split <;> rename_i hc
  · simp only [BitVec.slt, h118, decide_eq_true_eq] at hc
    show (118#32 : BitVec 32).toNat = _
    have : (118#32 : BitVec 32).toNat = 118 := by decide
    rw [this]; omega
  · simp only [BitVec.slt, h118, decide_eq_true_eq] at hc
    omega

/-- One lane of 128 carries the factor one: the weighted sum is that lane's entry. -/
theorem sum_onehot (c : Fin 128) (w p : Fin 128 → EReal)
    (hw : ∀ j, w j = if j = c then 1 else 0) : ∑ j : Fin 128, w j * p j = p c := by
  rw [Finset.sum_eq_single c]
  · rw [hw c, if_pos rfl, one_mul]
  · intro j _ hj
    rw [hw j, if_neg hj, zero_mul]
  · intro hc
    exact absurd (Finset.mem_univ c) hc

end Cert.Hand.Words
-- ==== Proof.Pre.lean ====
/-
  The precondition, read back. Beside the finiteness of the float inputs it says `all (atomic_numbers ≥ 0)`: the last
  conjunct of the printed predicate is the `and`-reduction of the signed comparison of every atomic number with zero.
  The predicate being 1 makes every conjunct 1, so every atomic number is non-negative as a signed word
  (`atomic_nonneg`). Nothing else of the precondition is used: no step of the value proof needs a float to be finite.
-/
import proofs.«428477_j44057774522753_3_alg».proof.Defs
import proofs.«428477_j44057774522753_3_alg».proof.Proof.Gen.Pre_finite_inputs
import proofs.«428477_j44057774522753_3_alg».proof.Proof.Words
import Idealize.ShloMosaic.Lib.ReduceAll
import Idealize.ShloMosaic.Lib.ValueIdx

set_option maxRecDepth 16384

noncomputable section

namespace Cert.Hand.Pre

open Idealize.ShloMosaic Idealize.ShloMosaic.ValueIdx
open Cert.Pre_finite_inputs

instance : Subsingleton S_.Idx := ⟨fun a b => funext fun d => d.elim0⟩

/-- The last conjunct of the printed predicate at its one index. -/
theorem part2_eq_one (a8 : IVec S1000000 32) (v33 : IVec S_ 1) (h : fn_part2 (F := Ideal) a8 v33 ix0 = 1#1) (i : S1000000.Idx) :
    IntOp.cmpi .sge (a8 i) 0#32 = 1#1 := by
  unfold fn_part2 at h
  dsimp only at h
  have h2 := (IntOp.andi_eq_one.1 h).2
  exact Host.reduce_andi_all _ _ _ _ ix0 h2 i

/-- Every atomic number is non-negative, read signed. -/
theorem atomic_nonneg (a0 : FVec Ideal S1000000x3 .f32) (a1 : FVec Ideal S1000000x128 .f32) (a2 : FVec Ideal S119 .f32) (a3 : FVec Ideal S64x128 .f32)
    (a4 : FVec Ideal S64 .f32) (a5 : FVec Ideal S1x64 .f32) (a6 : FVec Ideal S1 .f32) (a7 a8 : IVec S1000000 32)
    (h : fn (F := Ideal) a0 a1 a2 a3 a4 a5 a6 a7 a8 = fun _ => 1#1) (i : S1000000.Idx) : 0 ≤ (a8 i).toInt := by
  have e := congrFun h ix0
  unfold fn fn_part1 at e
  dsimp only at e
  exact Cert.Hand.Words.toInt_nonneg_of_sge _ (part2_eq_one a8 _ e i)

end Cert.Hand.Pre

end
-- ==== Proof.Mass.lean ====
/-
  The first kernel's store, read at an index of its [4000, 4] block.

  The body compares each of 128 lanes with the row's (clipped) atomic number, turns the comparison into the float 0 or 1,
  multiplies by the padded mass table laid along the lanes and sums the lanes: the row's mass. It then lays the mass in
  column 0 and mass · position in columns 1 to 3. At the ideal instance the lane sum is the finite sum over the 128 lanes
  of `[lane = a] · table lane` (`massCol_apply`), column 0 of the stored block is that sum (`pay0_col0`) and column
  1 + k is that sum times coordinate k of the row's position (`pay0_col`).
-/
import proofs.«428477_j44057774522753_3_alg».proof.Proof.Gen.KernelIdeal.Skeleton
import Idealize.ShloMosaic.Lib.Pipeline.Value
import Idealize.ShloMosaic.Lib.ValueIdx
import Idealize.ShloMosaic.PureOps.Ideal.Laws

set_option maxRecDepth 16384
noncomputable section
open Idealize.ShloMosaic Idealize.ShloMosaic.TcCoe Idealize.SL.Sem Idealize.ShloMosaic.ValueIdx
open Cert.KernelIdeal Cert.KernelIdeal.Gen

namespace Cert.KernelIdeal.Mass

/-- The 128 lanes of a row: lane k holds [k = a] · table k. -/
def lanes (v0 : Vec Ideal S4000x1 .i32) (v2 : Vec Ideal S1x128 .f32) : FVec Ideal S4000x128 .f32 :=
  mulf (sitofp .f32 (extui 32 (cmpi .eq (iota .tc S4000x128 32 [1] iota_S4000x128_d1_w32)
      (broadcastTo S4000x128 (shapeCast S4000x1 v0 shapeCasts_S4000x1_S4000x1) broadcasts_S4000x1_S4000x128)) natLt_1_32))
    (broadcastTo S4000x128 (shapeCast S1x128 v2 shapeCasts_S1x128_S1x128) broadcasts_S1x128_S4000x128)

def massCol (v0 : Vec Ideal S4000x1 .i32) (v2 : Vec Ideal S1x128 .f32) : FVec Ideal S4000x1 .f32 :=
  shapeCast S4000x1 (multiReduction .add [1] S4000 (lanes v0 v2) 0x00000000#32 reduces_S4000x128_S4000 (.inl rfl) rfl) shapeCasts_S4000_S4000x1

theorem pay0_eq (v0 : Vec Ideal S4000x1 .i32) (v2 : Vec Ideal S1x128 .f32) (v13 : Vec Ideal S4000x3 .f32) :
    k0_pay1 (F := Ideal) v0 v2 v13 = concatenate S4000x4 1 [⟨S4000x1, massCol v0 v2⟩,
      ⟨S4000x3, mulf (broadcastTo S4000x3 (massCol v0 v2) broadcasts_S4000x1_S4000x3) v13⟩] concatenates_S4000x1_S4000x3_S4000x4_d1 := rfl

theorem lanes_apply (v0 : Vec Ideal S4000x1 .i32) (v2 : Vec Ideal S1x128 .f32) (p : Fin 4000) (k : Fin 128) :
    lanes v0 v2 (ix2 p k) = (if BitVec.ofNat 32 k.val = v0 (ix2 p (0 : Fin 1)) then (1 : EReal) else 0) * v2 (ix2 (0 : Fin 1) k) := by
  unfold lanes
  rw [mulf_apply]
  have e1 : broadcastTo S4000x128 (shapeCast S1x128 v2 shapeCasts_S1x128_S1x128) broadcasts_S1x128_S4000x128 (ix2 p k) = v2 (ix2 (0 : Fin 1) k) := by
    rw [shapeCast_self]
    exact broadcastTo_apply v2 broadcasts_S1x128_S4000x128 (ix2 p k) (ix2 (0 : Fin 1) k) (fun a => by
      match a with
      | ⟨0, _⟩ => rfl
      | ⟨1, _⟩ => rfl)
  rw [e1]
  have e2 : broadcastTo S4000x128 (shapeCast S4000x1 v0 shapeCasts_S4000x1_S4000x1) broadcasts_S4000x1_S4000x128 (ix2 p k) = v0 (ix2 p (0 : Fin 1)) := by
    rw [shapeCast_self]
    exact broadcastTo_apply v0 broadcasts_S4000x1_S4000x128 (ix2 p k) (ix2 p (0 : Fin 1)) (fun a => by
      match a with
      | ⟨0, _⟩ => rfl
      | ⟨1, _⟩ => rfl)
  have e3 : iota .tc S4000x128 32 [1] iota_S4000x128_d1_w32 (ix2 p k) = BitVec.ofNat 32 k.val := by
    show BitVec.ofNat 32 (0 * 128 + k.val) = _
    rw [Nat.zero_mul, Nat.zero_add]
  refine congrArg (· * v2 (ix2 (0 : Fin 1) k)) ?_
  show ((((IntOp.cmpi .eq (iota .tc S4000x128 32 [1] iota_S4000x128_d1_w32 (ix2 p k))
      (broadcastTo S4000x128 (shapeCast S4000x1 v0 shapeCasts_S4000x1_S4000x1) broadcasts_S4000x1_S4000x128 (ix2 p k))).setWidth 32).toInt : ℝ) : EReal) = _
  rw [e2, e3]
  by_cases h : BitVec.ofNat 32 k.val = v0 (ix2 p (0 : Fin 1))
  · rw [if_pos h]
    have : IntOp.cmpi .eq (BitVec.ofNat 32 k.val) (v0 (ix2 p (0 : Fin 1))) = 1#1 := by
      unfold IntOp.cmpi; rw [h]; simp
    rw [this]; simp
  · rw [if_neg h]
    have : IntOp.cmpi .eq (BitVec.ofNat 32 k.val) (v0 (ix2 p (0 : Fin 1))) = 0#1 := by
      unfold IntOp.cmpi
      have hb : (BitVec.ofNat 32 k.val == v0 (ix2 p (0 : Fin 1))) = false := by simpa using h
      show BitVec.ofBool (BitVec.ofNat 32 k.val == v0 (ix2 p (0 : Fin 1))) = 0#1
      rw [hb]; rfl
    rw [this]; simp

theorem massCol_apply (v0 : Vec Ideal S4000x1 .i32) (v2 : Vec Ideal S1x128 .f32) (p : Fin 4000) :
    massCol v0 v2 (ix2 p (0 : Fin 1)) = ∑ k : Fin 128, (if BitVec.ofNat 32 k.val = v0 (ix2 p (0 : Fin 1)) then (1 : EReal) else 0) * v2 (ix2 (0 : Fin 1) k) := by
  unfold massCol
  refine (shapeCast_apply _ shapeCasts_S4000_S4000x1 (ix2 p (0 : Fin 1)) (ix1 p) ?_).trans ?_
  · rw [Shape.rowMajor_val_two]
    rw [Shape.rowMajor_val_one]
    show p.val = p.val * 1 + 0
    omega
  refine (Ideal.multiReduction_add_single (lanes v0 v2) 0x00000000#32 reduces_S4000x128_S4000 (.inl rfl) rfl (ix1 p)).trans ?_
  refine Finset.sum_congr rfl fun k _ => ?_
  have hl : reduces_S4000x128_S4000.lift (ix1 p) k = ix2 p (k : Fin 128) := by
    funext a
    match a with
    | ⟨0, _⟩ => exact Fin.ext rfl
    | ⟨1, _⟩ => exact Fin.ext rfl
  rw [hl]
  exact lanes_apply v0 v2 p k

/-- The payload at column 0 is the row's mass; at column 1 + k it is the mass times the position's coordinate k. -/
theorem pay0_col0 (v0 : Vec Ideal S4000x1 .i32) (v2 : Vec Ideal S1x128 .f32) (v13 : Vec Ideal S4000x3 .f32) (p : Fin 4000) :
    k0_pay1 (F := Ideal) v0 v2 v13 (ix2 p (0 : Fin 4)) = massCol v0 v2 (ix2 p (0 : Fin 1)) := by
  rw [pay0_eq]
  exact concatenate_pair_apply_left (t := S4000x4) (s₁ := S4000x1) (s₂ := S4000x3) (1 : Fin 2) _ _ concatenates_S4000x1_S4000x3_S4000x4_d1
    (ix2 p (0 : Fin 4)) rfl (ix2 p (0 : Fin 1)) (fun b => by
      match b with
      | ⟨0, _⟩ => rfl
      | ⟨1, _⟩ => rfl)

theorem pay0_col (v0 : Vec Ideal S4000x1 .i32) (v2 : Vec Ideal S1x128 .f32) (v13 : Vec Ideal S4000x3 .f32) (p : Fin 4000) (k : Fin 3) :
    k0_pay1 (F := Ideal) v0 v2 v13 (ix2 p (⟨k.val + 1, by omega⟩ : Fin 4)) = massCol v0 v2 (ix2 p (0 : Fin 1)) * v13 (ix2 p k) := by
  rw [pay0_eq]
  refine (concatenate_pair_apply_right (t := S4000x4) (s₁ := S4000x1) (s₂ := S4000x3) (1 : Fin 2) _ _ concatenates_S4000x1_S4000x3_S4000x4_d1
    (ix2 p (⟨k.val + 1, by omega⟩ : Fin 4)) rfl rfl (ix2 p k) (fun b hb => by
      match b with
      | ⟨0, _⟩ => rfl
      | ⟨1, _⟩ => exact absurd rfl hb) (by show k.val + 1 = k.val + 1; rfl)).trans ?_
  rw [mulf_apply]
  refine congrArg (· * v13 (ix2 p k)) ?_
  exact broadcastTo_apply _ broadcasts_S4000x1_S4000x3 (ix2 p k) (ix2 p (0 : Fin 1)) (fun a => by
    match a with
    | ⟨0, _⟩ => rfl
    | ⟨1, _⟩ => rfl)

end Cert.KernelIdeal.Mass

end
-- ==== Proof.Region0.lean ====
/-
  What the first kernel leaves in its [1000000, 4] output, as one function of the three arrays the region finds.

  The grid has 250 points; point t stages rows 4000·t … 4000·t + 3999 of the atomic numbers (a column) and of the
  positions, and the whole padded table, and writes back rows 4000·t … of the output. Row n of the output is
  (mass n, mass n · pos n 0, mass n · pos n 1, mass n · pos n 2), where mass n is the lane sum
  ∑ₖ [k = a n] · table k over the 128 lanes (`massOf`). Each point's block is the matching rows of that one
  function (`flushed_eq`), the 250 blocks cover every row (`cover`), so the array ends holding it (`final`).
-/
import proofs.«428477_j44057774522753_3_alg».proof.Proof.Gen.KernelIdeal.Frame
import proofs.«428477_j44057774522753_3_alg».proof.Proof.Mass
import Idealize.ShloMosaic.Lib.Pipeline.Value

set_option maxRecDepth 16384

noncomputable section

namespace Cert.KernelIdeal.Region0

open Cert.KernelIdeal Cert.KernelIdeal.Gen Cert.KernelIdeal.Mass
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The mass of atom `n`: over the 128 lanes, the lane that equals the atom's number carries the table's entry. -/
def massOf (a : S1000000x1.Idx → BitVec 32) (tb : S1x128.Idx → EReal) (n : Fin 1000000) : EReal :=
  ∑ k : Fin 128, (if BitVec.ofNat 32 k.val = a (ix2 n (0 : Fin 1)) then (1 : EReal) else 0) * tb (ix2 (0 : Fin 1) k)

/-- The output array: column 0 the mass, column 1 + k the mass times coordinate k of the position. -/
def G0 (a : S1000000x1.Idx → BitVec 32) (tb : S1x128.Idx → EReal) (pos : S1000000x3.Idx → EReal) : S1000000x4.Idx → EReal :=
  fun i => if h : (i 1).val = 0 then massOf a tb ⟨(i 0).val, idx2_lt0 i⟩
    else massOf a tb ⟨(i 0).val, idx2_lt0 i⟩ * pos (ix2 ⟨(i 0).val, idx2_lt0 i⟩ ⟨(i 1).val - 1, by have := idx2_lt1 i; omega⟩)

theorem G0_col0 (a : S1000000x1.Idx → BitVec 32) (tb : S1x128.Idx → EReal) (pos : S1000000x3.Idx → EReal) (i : S1000000x4.Idx)
    (n : Fin 1000000) (hn : (i 0).val = n.val) (h1 : (i 1).val = 0) : G0 a tb pos i = massOf a tb n := by
  unfold G0
  rw [dif_pos h1]
  exact congrArg (massOf a tb) (Fin.ext hn)

theorem G0_col (a : S1000000x1.Idx → BitVec 32) (tb : S1x128.Idx → EReal) (pos : S1000000x3.Idx → EReal) (i : S1000000x4.Idx)
    (n : Fin 1000000) (k : Fin 3) (hn : (i 0).val = n.val) (h1 : (i 1).val = k.val + 1) : G0 a tb pos i = massOf a tb n * pos (ix2 n k) := by
  unfold G0
  rw [dif_neg (by omega)]
  have e0 : (⟨(i 0).val, idx2_lt0 i⟩ : Fin 1000000) = n := Fin.ext hn
  have e1 : (⟨(i 1).val - 1, by have := idx2_lt1 i; omega⟩ : Fin 3) = k := Fin.ext (by show (i 1).val - 1 = k.val; omega)
  rw [e0, e1]

/-- The printed index maps over the 250 points: the row windows move with the point, the table's stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 250 := lt_of_lt_of_eq t.isLt (show cfg0.N = 250 from N_0)

/-- Row p of the atomic-number block at point t is row 4000·t + p of the array. -/
theorem iblk_a (c : Dev nD) (t : Fin cfg0.N) (p : Fin 4000) :
    (iblk0 V c 0 t : Vec Ideal S4000x1 .i32) (ix2 p (0 : Fin 1))
      = (V c main_v5 : S1000000x1.Idx → BitVec 32) (ix2 (⟨4000 * t.val + p.val, by have := t_lt t; omega⟩ : Fin 1000000) (0 : Fin 1)) := by
  obtain ⟨e0, e1, -⟩ := idx_facts t
  unfold iblk0
  rw [View.read_apply]
  show V c main_v5 _ = V c main_v5 _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 1 + 1 * 0 = 0; rw [e1]

/-- The table block at any point is the whole padded table. -/
theorem iblk_tb (c : Dev nD) (t : Fin cfg0.N) (k : Fin 128) :
    (iblk0 V c 1 t : Vec Ideal S1x128 .f32) (ix2 (0 : Fin 1) k) = (V c main_v3 : S1x128.Idx → EReal) (ix2 (0 : Fin 1) k) := by
  obtain ⟨-, -, e0, e1, -⟩ := idx_facts t
  unfold iblk0
  rw [View.read_apply]
  show V c main_v3 _ = V c main_v3 _
  congr 1
  funext a
  apply Fin.ext
  match a with
  | ⟨0, _⟩ => show win0_1.index t (0 : Fin 2) * 1 + 1 * 0 = 0; rw [e0]
  | ⟨1, _⟩ => show win0_1.index t (1 : Fin 2) * 128 + 1 * k.val = k.val; rw [e1]; omega

/-- Row p of the position block at point t is row 4000·t + p of the positions. -/
theorem iblk_pos (c : Dev nD) (t : Fin cfg0.N) (p : Fin 4000) (k : Fin 3) :
    (iblk0 V c 2 t : Vec Ideal S4000x3 .f32) (ix2 p k)
      = (V c main_arg0 : S1000000x3.Idx → EReal) (ix2 (⟨4000 * t.val + p.val, by have := t_lt t; omega⟩ : Fin 1000000) k) := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 4000 + 1 * p.val = 4000 * t.val + p.val; rw [e0]; omega
  | ⟨1, _⟩ => show win0_2.index t (1 : Fin 2) * 3 + 1 * k.val = k.val; rw [e1]; omega

/-- The lane sum of row p of point t's blocks is the mass of atom 4000·t + p. -/
theorem mass_blk (c : Dev nD) (t : Fin cfg0.N) (p : Fin 4000) :
    massCol (iblk0 V c 0 t) (iblk0 V c 1 t) (ix2 p (0 : Fin 1))
      = massOf (V c main_v5) (V c main_v3) (⟨4000 * t.val + p.val, by have := t_lt t; omega⟩ : Fin 1000000) := by
  refine (massCol_apply (iblk0 V c 0 t) (iblk0 V c 1 t) p).trans ?_
  unfold massOf
  refine Finset.sum_congr rfl fun k _ => ?_
  rw [iblk_a V c t p, iblk_tb V c t k]

/-- WHAT POINT t WRITES BACK is its rows of `G0` of the arrays the region finds. -/
theorem flushed_eq (c : Dev nD) (t : Fin cfg0.N) :
    (dat0 V c).flushed 3 t = ((cfg0.win 3).blk t).view.read (Elt Ideal) (G0 (V c main_v5) (V c main_v3) (V c main_arg0)) := by
  show (cfg0.win 3).cut (grid0.coords t) ((dat0 V c).after 3 t) = _
  rw [after0_3]
  unfold out0_3
  rw [View.canon_unit_zero hz]
  simp only [View.ld_unit_zero (S := S4000x1) hz, View.ld_unit_zero (S := S1x128) hz, View.ld_unit_zero (S := S4000x3) hz]
  obtain ⟨-, -, -, -, -, -, e0, e1⟩ := idx_facts t
  funext j
  obtain ⟨p, q, rfl⟩ : ∃ (p : Fin 4000) (q : Fin 4), j = ix2 p q := ⟨j 0, j 1, eq_ix2 j⟩
  rw [View.read_apply]
  have hr : ((((cfg0.win 3).blk t).view.emb (ix2 p q)) 0).val = 4000 * t.val + p.val := by
    show win0_3.index t (0 : Fin 2) * 4000 + 1 * p.val = _; rw [e0]; omega
  have hc : ((((cfg0.win 3).blk t).view.emb (ix2 p q)) 1).val = q.val := by
    show win0_3.index t (1 : Fin 2) * 4 + 1 * q.val = _; rw [e1]; omega
  show k0_pay1 (iblk0 V c 0 t) (iblk0 V c 1 t) (iblk0 V c 2 t) (ix2 p q) = _
  match q with
  | ⟨0, _⟩ =>
    refine (pay0_col0 (iblk0 V c 0 t) (iblk0 V c 1 t) (iblk0 V c 2 t) p).trans ?_
    rw [mass_blk V c t p]
    exact (G0_col0 _ _ _ _ _ hr hc).symm
  | ⟨k + 1, hk⟩ =>
    refine (pay0_col (iblk0 V c 0 t) (iblk0 V c 1 t) (iblk0 V c 2 t) p ⟨k, by omega⟩).trans ?_
    rw [mass_blk V c t p, iblk_pos V c t p ⟨k, by omega⟩]
    exact (G0_col _ _ _ _ _ ⟨k, by omega⟩ hr hc).symm

/-- An index of the array is in point t's block iff each coordinate is in the block's range on its axis. -/
theorem mem_blk (t : Fin cfg0.N) (i : S1000000x4.Idx) :
    i ∈ ((cfg0.win 3).blk t).view.set ↔ ∀ a : Fin 2, win0_3.index t a * S4000x4.size a ≤ (i a).val ∧ (i a).val < win0_3.index t a * S4000x4.size a + S4000x4.size a := by
  show i ∈ ((View.whole main_v10).slice (win0_3.rect t)).set ↔ _
  rw [View.set_slice_whole, Rect.mem_set_unit]
  exact Iff.rfl

/-- Row r is in the block of point r / 4000. -/
theorem cover (i : S1000000x4.Idx) : ∃ t : Fin cfg0.N, (cfg0.win 3).flush t = true ∧ i ∈ ((cfg0.win 3).blk t).view.set := by
  have hi0 : (i 0).val < 1000000 := idx2_lt0 i
  have hi1 : (i 1).val < 4 := idx2_lt1 i
  let t : Fin cfg0.N := ⟨(i 0).val / 4000, by rw [show cfg0.N = 250 from N_0]; omega⟩
  obtain ⟨-, -, -, -, -, -, e0, e1⟩ := idx_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    rw [e0]; show (i 0).val / 4000 * 4000 ≤ (i 0).val ∧ (i 0).val < (i 0).val / 4000 * 4000 + 4000; omega
  | ⟨1, _⟩ =>
    show win0_3.index t (1 : Fin 2) * 4 ≤ (i 1).val ∧ (i 1).val < win0_3.index t (1 : Fin 2) * 4 + 4
    rw [e1]; omega

/-- THE ARRAY after the region: `G0` of the atomic numbers, the padded table and the positions as the region finds them. -/
theorem final (c : Dev nD) : (dat0 V c).arrAt 3 cfg0.N = G0 (V c main_v5) (V c main_v3) (V c main_arg0) :=
  (dat0 V c).arrAt_eq_of_cover 3 (G0 (V c main_v5) (V c main_v3) (V c main_arg0)) (fun t _ => flushed_eq V c t) cover

end Cert.KernelIdeal.Region0

end
-- ==== Proof.Mlp.lean ====
/-
  The second kernel's store, read at an index of its [8000, 1] block.

  The body multiplies the [8000, 128] block of node features by the [128, 64] weights (a matrix product into a zero
  accumulator: at the ideal instance the plain sum over the 128 contracted coordinates, the changes of float format
  the identity), adds the bias row, applies x · logistic x, multiplies by the [64, 1] weights, adds the second bias
  and multiplies by the row's spatial term. So row p of the stored block is
    (∑ₖ silu (∑ₗ x p l · w₁ l k + b₁ k) · w₂ k + b₂) · spatial p        (`pay1_apply`).
  Each matrix product contracts one axis: its contraction index is re-indexed by that axis's coordinate, and the operands'
  indices at a result index (p, k) and contraction coordinate l are (p, l) and (l, k) (the four axis lemmas).
-/
import proofs.«428477_j44057774522753_3_alg».proof.Proof.Gen.KernelIdeal.Skeleton
import Idealize.ShloMosaic.Lib.Pipeline.Value
import Idealize.ShloMosaic.Lib.ValueIdx
import Idealize.ShloMosaic.PureOps.Ideal.Laws

set_option maxRecDepth 16384
noncomputable section
open Idealize.ShloMosaic Idealize.ShloMosaic.TcCoe Idealize.SL.Sem Idealize.ShloMosaic.ValueIdx
open Cert.KernelIdeal Cert.KernelIdeal.Gen

namespace Cert.KernelIdeal.Mlp

/-- x · logistic x on the extended reals. -/
def silu (h : EReal) : EReal := h * Ideal.logistic h

theorem lhs_mm1_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_mm1_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_mm1_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_mm1_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

theorem lhs_mm2_0 (i : S8000x1.Idx) (q : dot_S8000x64_S64x1_S8000x1_1_0_0_1_n_n.contr.Idx) :
    (dot_S8000x64_S64x1_S8000x1_1_0_0_1_n_n.lhsIdx i q 0).val = (i 0).val := by
  unfold DotDims.lhsIdx
  rw [dif_neg (show ¬(0 : Fin S8000x64.rank) ∈ dot_S8000x64_S64x1_S8000x1_1_0_0_1_n_n.lhsBatch by decide), dif_pos (show (0 : Fin S8000x64.rank) ∈ dot_S8000x64_S64x1_S8000x1_1_0_0_1_n_n.lhsNonContracting by decide)]
  rfl
theorem lhs_mm2_1 (i : S8000x1.Idx) (q : dot_S8000x64_S64x1_S8000x1_1_0_0_1_n_n.contr.Idx) :
    (dot_S8000x64_S64x1_S8000x1_1_0_0_1_n_n.lhsIdx i q 1).val = (q ⟨0, by decide⟩).val :=
  dot_S8000x64_S64x1_S8000x1_1_0_0_1_n_n.lhsIdx_val_of_single rfl i q
theorem rhs_mm2_0 (i : S8000x1.Idx) (q : dot_S8000x64_S64x1_S8000x1_1_0_0_1_n_n.contr.Idx) :
    (dot_S8000x64_S64x1_S8000x1_1_0_0_1_n_n.rhsIdx i q 0).val = (q ⟨0, by decide⟩).val :=
  dot_S8000x64_S64x1_S8000x1_1_0_0_1_n_n.rhsIdx_val_of_single rfl i q
theorem rhs_mm2_1 (i : S8000x1.Idx) (q : dot_S8000x64_S64x1_S8000x1_1_0_0_1_n_n.contr.Idx) :
    (dot_S8000x64_S64x1_S8000x1_1_0_0_1_n_n.rhsIdx i q 1).val = (i 1).val := by
  unfold DotDims.rhsIdx
  rw [dif_neg (show ¬(1 : Fin S64x1.rank) ∈ dot_S8000x64_S64x1_S8000x1_1_0_0_1_n_n.rhsBatch by decide), dif_pos (show (1 : Fin S64x1.rank) ∈ dot_S8000x64_S64x1_S8000x1_1_0_0_1_n_n.rhsNonContracting by decide)]
  rfl

/-- The first matrix product plus the bias row. -/
def hidden (v0 : Vec Ideal S8000x128 .f32) (v2 : Vec Ideal S128x64 .f32) (v6 : Vec Ideal S1x64 .f32) : FVec Ideal S8000x64 .f32 :=
  addf (matmul dot_S8000x128_S128x64_S8000x64_1_0_0_1_n_n none (truncf .bf16 v0 bitsLt_bf16_f32) (truncf .bf16 (shapeCast S128x64 v2 shapeCasts_S128x64_S128x64) bitsLt_bf16_f32) (constant S8000x64 .f32 0x00000000#32))
    (broadcastTo S8000x64 (shapeCast S1x64 v6 shapeCasts_S1x64_S1x64) broadcasts_S1x64_S8000x64)

theorem hidden_apply (v0 : Vec Ideal S8000x128 .f32) (v2 : Vec Ideal S128x64 .f32) (v6 : Vec Ideal S1x64 .f32) (p : Fin 8000) (k : Fin 64) :
    hidden v0 v2 v6 (ix2 p k) = ∑ l : Fin 128, v0 (ix2 p l) * v2 (ix2 l k) + v6 (ix2 (0 : Fin 1) k) := by
  unfold hidden
  rw [addf_apply, shapeCast_self, shapeCast_self]
  have eb : broadcastTo S8000x64 v6 broadcasts_S1x64_S8000x64 (ix2 p k) = v6 (ix2 (0 : Fin 1) k) :=
    broadcastTo_apply v6 broadcasts_S1x64_S8000x64 (ix2 p k) (ix2 (0 : Fin 1) k) (fun a => by
      match a with
      | ⟨0, _⟩ => rfl
      | ⟨1, _⟩ => rfl)
  rw [eb]
  refine congrArg (· + v6 (ix2 (0 : Fin 1) k)) ?_
  refine (Ideal.matmul_constant_zero_apply dot_S8000x128_S128x64_S8000x64_1_0_0_1_n_n none _ _ (ix2 p k)).trans ?_
  rw [← Equiv.sum_comp (contrEquiv1 dot_S8000x128_S128x64_S8000x64_1_0_0_1_n_n 128 rfl rfl).symm]
  refine Finset.sum_congr rfl fun l _ => ?_
  have hl := contrEquiv1_symm_val dot_S8000x128_S128x64_S8000x64_1_0_0_1_n_n 128 rfl rfl l
  have el : dot_S8000x128_S128x64_S8000x64_1_0_0_1_n_n.lhsIdx (ix2 p k) ((contrEquiv1 dot_S8000x128_S128x64_S8000x64_1_0_0_1_n_n 128 rfl rfl).symm l) = ix2 p l := funext fun a => Fin.ext (by
    match a with
    | ⟨0, _⟩ => exact lhs_mm1_0 _ _
    | ⟨1, _⟩ => exact (lhs_mm1_1 _ _).trans hl)
  have er : dot_S8000x128_S128x64_S8000x64_1_0_0_1_n_n.rhsIdx (ix2 p k) ((contrEquiv1 dot_S8000x128_S128x64_S8000x64_1_0_0_1_n_n 128 rfl rfl).symm l) = ix2 l k := funext fun a => Fin.ext (by
    match a with
    | ⟨0, _⟩ => exact (rhs_mm1_0 _ _).trans hl
    | ⟨1, _⟩ => exact rhs_mm1_1 _ _)
  rw [el, er]
  rfl

/-- The activation x · logistic x of the hidden layer. -/
def act (v0 : Vec Ideal S8000x128 .f32) (v2 : Vec Ideal S128x64 .f32) (v6 : Vec Ideal S1x64 .f32) : FVec Ideal S8000x64 .f32 :=
  mulf (hidden v0 v2 v6) (logistic (hidden v0 v2 v6))

theorem act_apply (v0 : Vec Ideal S8000x128 .f32) (v2 : Vec Ideal S128x64 .f32) (v6 : Vec Ideal S1x64 .f32) (p : Fin 8000) (k : Fin 64) :
    act v0 v2 v6 (ix2 p k) = silu (∑ l : Fin 128, v0 (ix2 p l) * v2 (ix2 l k) + v6 (ix2 (0 : Fin 1) k)) := by
  unfold act silu
  rw [mulf_apply]
  show hidden v0 v2 v6 (ix2 p k) * Ideal.logistic (hidden v0 v2 v6 (ix2 p k)) = _
  rw [hidden_apply]

theorem pay1_eq (v0 : Vec Ideal S8000x128 .f32) (v2 : Vec Ideal S128x64 .f32) (v6 : Vec Ideal S1x64 .f32) (v12 : Vec Ideal S64x1 .f32)
    (v17 : Vec Ideal S1x1 .f32) (v21 : Vec Ideal S8000x1 .f32) :
    k1_pay1 (F := Ideal) v0 v2 v6 v12 v17 v21
      = mulf (addf (matmul dot_S8000x64_S64x1_S8000x1_1_0_0_1_n_n none (truncf .bf16 (act v0 v2 v6) bitsLt_bf16_f32) (truncf .bf16 (shapeCast S64x1 v12 shapeCasts_S64x1_S64x1) bitsLt_bf16_f32) (constant S8000x1 .f32 0x00000000#32))
          (broadcastTo S8000x1 (shapeCast S1x1 v17 shapeCasts_S1x1_S1x1) broadcasts_S1x1_S8000x1))
        (shapeCast S8000x1 v21 shapeCasts_S8000x1_S8000x1) := rfl

/-- Row p of the stored block. -/
theorem pay1_apply (v0 : Vec Ideal S8000x128 .f32) (v2 : Vec Ideal S128x64 .f32) (v6 : Vec Ideal S1x64 .f32) (v12 : Vec Ideal S64x1 .f32)
    (v17 : Vec Ideal S1x1 .f32) (v21 : Vec Ideal S8000x1 .f32) (p : Fin 8000) :
    k1_pay1 (F := Ideal) v0 v2 v6 v12 v17 v21 (ix2 p (0 : Fin 1))
      = (∑ k : Fin 64, silu (∑ l : Fin 128, v0 (ix2 p l) * v2 (ix2 l k) + v6 (ix2 (0 : Fin 1) k)) * v12 (ix2 k (0 : Fin 1))
          + v17 (ix2 (0 : Fin 1) (0 : Fin 1))) * v21 (ix2 p (0 : Fin 1)) := by
  rw [pay1_eq, mulf_apply, addf_apply, shapeCast_self, shapeCast_self, shapeCast_self]
  have eb : broadcastTo S8000x1 v17 broadcasts_S1x1_S8000x1 (ix2 p (0 : Fin 1)) = v17 (ix2 (0 : Fin 1) (0 : Fin 1)) :=
    broadcastTo_apply v17 broadcasts_S1x1_S8000x1 (ix2 p (0 : Fin 1)) (ix2 (0 : Fin 1) (0 : Fin 1)) (fun a => by
      match a with
      | ⟨0, _⟩ => rfl
      | ⟨1, _⟩ => rfl)
  rw [eb]
  refine congrArg (fun z => (z + v17 (ix2 (0 : Fin 1) (0 : Fin 1))) * v21 (ix2 p (0 : Fin 1))) ?_
  refine (Ideal.matmul_constant_zero_apply dot_S8000x64_S64x1_S8000x1_1_0_0_1_n_n none _ _ (ix2 p (0 : Fin 1))).trans ?_
  rw [← Equiv.sum_comp (contrEquiv1 dot_S8000x64_S64x1_S8000x1_1_0_0_1_n_n 64 rfl rfl).symm]
  refine Finset.sum_congr rfl fun k _ => ?_
  have hk := contrEquiv1_symm_val dot_S8000x64_S64x1_S8000x1_1_0_0_1_n_n 64 rfl rfl k
  have el : dot_S8000x64_S64x1_S8000x1_1_0_0_1_n_n.lhsIdx (ix2 p (0 : Fin 1)) ((contrEquiv1 dot_S8000x64_S64x1_S8000x1_1_0_0_1_n_n 64 rfl rfl).symm k) = ix2 p k := funext fun a => Fin.ext (by
    match a with
    | ⟨0, _⟩ => exact lhs_mm2_0 _ _
    | ⟨1, _⟩ => exact (lhs_mm2_1 _ _).trans hk)
  have er : dot_S8000x64_S64x1_S8000x1_1_0_0_1_n_n.rhsIdx (ix2 p (0 : Fin 1)) ((contrEquiv1 dot_S8000x64_S64x1_S8000x1_1_0_0_1_n_n 64 rfl rfl).symm k) = ix2 k (0 : Fin 1) := funext fun a => Fin.ext (by
    match a with
    | ⟨0, _⟩ => exact (rhs_mm2_0 _ _).trans hk
    | ⟨1, _⟩ => exact rhs_mm2_1 _ _)
  rw [el, er]
  show act v0 v2 v6 (ix2 p k) * v12 (ix2 k (0 : Fin 1)) = _
  rw [act_apply]

end Cert.KernelIdeal.Mlp

end
-- ==== Proof.Region1.lean ====
/-
  What the second kernel leaves in its [1000000, 1] output, as one function of the six arrays the region finds.

  The grid has 125 points; point t stages rows 8000·t … 8000·t + 7999 of the node features and of the spatial column,
  and the two weight matrices and two bias rows whole, and writes back rows 8000·t … of the output. Row n of the output
  is (∑ₖ silu (∑ₗ x n l · w₁ l k + b₁ k) · w₂ k + b₂) · spatial n (`rowOut`). Each point's block is the matching rows
  of that one function (`flushed_eq`), the 125 blocks cover every row (`cover`), so the array ends holding it (`final`).
-/
import proofs.«428477_j44057774522753_3_alg».proof.Proof.Gen.KernelIdeal.Frame
import proofs.«428477_j44057774522753_3_alg».proof.Proof.Mlp
import Idealize.ShloMosaic.Lib.Pipeline.Value

set_option maxRecDepth 16384

noncomputable section

namespace Cert.KernelIdeal.Region1

open Cert.KernelIdeal Cert.KernelIdeal.Gen Cert.KernelIdeal.Mlp
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `n` of the output: the two-layer perceptron of the row's features, times the row's spatial term. -/
def rowOut (x : S1000000x128.Idx → EReal) (sp : S1000000x1.Idx → EReal) (w1 : S128x64.Idx → EReal) (b1 : S1x64.Idx → EReal)
    (w2 : S64x1.Idx → EReal) (b2 : S1x1.Idx → EReal) (n : Fin 1000000) : EReal :=
  (∑ k : Fin 64, silu (∑ l : Fin 128, x (ix2 n l) * w1 (ix2 l k) + b1 (ix2 (0 : Fin 1) k)) * w2 (ix2 k (0 : Fin 1))
    + b2 (ix2 (0 : Fin 1) (0 : Fin 1))) * sp (ix2 n (0 : Fin 1))

/-- The output array. -/
def G1 (x : S1000000x128.Idx → EReal) (sp : S1000000x1.Idx → EReal) (w1 : S128x64.Idx → EReal) (b1 : S1x64.Idx → EReal)
    (w2 : S64x1.Idx → EReal) (b2 : S1x1.Idx → EReal) : S1000000x1.Idx → EReal :=
  fun i => rowOut x sp w1 b1 w2 b2 ⟨(i 0).val, idx2_lt0 i⟩

/-- The printed index maps over the 125 points: the row windows move with the point, the weights' stay put. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 125 := lt_of_lt_of_eq t.isLt (show cfg1.N = 125 from N_1)

theorem iblk_x (c : Dev nD) (t : Fin cfg1.N) (p : Fin 8000) (l : Fin 128) :
    (iblk1 V c 0 t : Vec Ideal S8000x128 .f32) (ix2 p l)
      = (V c main_arg1 : S1000000x128.Idx → EReal) (ix2 (⟨8000 * t.val + p.val, by have := t_lt t; omega⟩ : Fin 1000000) l) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 8000 + 1 * p.val = 8000 * t.val + p.val; rw [e0]; omega
  | ⟨1, _⟩ => show win1_0.index t (1 : Fin 2) * 128 + 1 * l.val = l.val; rw [e1]; omega

theorem iblk_sp (c : Dev nD) (t : Fin cfg1.N) (p : Fin 8000) :
    (iblk1 V c 1 t : Vec Ideal S8000x1 .f32) (ix2 p (0 : Fin 1))
      = (V c main_v31 : S1000000x1.Idx → EReal) (ix2 (⟨8000 * t.val + p.val, by have := t_lt t; omega⟩ : Fin 1000000) (0 : Fin 1)) := by
  obtain ⟨-, -, e0, e1, -⟩ := idx_facts t
  unfold iblk1
  rw [View.read_apply]
  show V c main_v31 _ = V c main_v31 _
  congr 1
  funext a
  apply Fin.ext
  match a with
  | ⟨0, _⟩ => show win1_1.index t (0 : Fin 2) * 8000 + 1 * p.val = 8000 * t.val + p.val; rw [e0]; omega
  | ⟨1, _⟩ => show win1_1.index t (1 : Fin 2) * 1 + 1 * 0 = 0; rw [e1]

theorem iblk_w1 (c : Dev nD) (t : Fin cfg1.N) (l : Fin 128) (k : Fin 64) :
    (iblk1 V c 2 t : Vec Ideal S128x64 .f32) (ix2 l k) = (V c main_v6 : S128x64.Idx → EReal) (ix2 l k) := by
  obtain ⟨-, -, -, -, e0, e1, -⟩ := idx_facts t
  unfold iblk1
  rw [View.read_apply]
  show V c main_v6 _ = V c main_v6 _
  congr 1
  funext a
  apply Fin.ext
  match a with
  | ⟨0, _⟩ => show win1_2.index t (0 : Fin 2) * 128 + 1 * l.val = l.val; rw [e0]; omega
  | ⟨1, _⟩ => show win1_2.index t (1 : Fin 2) * 64 + 1 * k.val = k.val; rw [e1]; omega

theorem iblk_b1 (c : Dev nD) (t : Fin cfg1.N) (k : Fin 64) :
    (iblk1 V c 3 t : Vec Ideal S1x64 .f32) (ix2 (0 : Fin 1) k) = (V c main_v7 : S1x64.Idx → EReal) (ix2 (0 : Fin 1) k) := by
  obtain ⟨-, -, -, -, -, -, e0, e1, -⟩ := idx_facts t
  unfold iblk1
  rw [View.read_apply]
  show V c main_v7 _ = V c main_v7 _
  congr 1
  funext a
  apply Fin.ext
  match a with
  | ⟨0, _⟩ => show win1_3.index t (0 : Fin 2) * 1 + 1 * 0 = 0; rw [e0]
  | ⟨1, _⟩ => show win1_3.index t (1 : Fin 2) * 64 + 1 * k.val = k.val; rw [e1]; omega

theorem iblk_w2 (c : Dev nD) (t : Fin cfg1.N) (k : Fin 64) :
    (iblk1 V c 4 t : Vec Ideal S64x1 .f32) (ix2 k (0 : Fin 1)) = (V c main_v8 : S64x1.Idx → EReal) (ix2 k (0 : Fin 1)) := by
  obtain ⟨-, -, -, -, -, -, -, -, e0, e1, -⟩ := idx_facts t
  unfold iblk1
  rw [View.read_apply]
  show V c main_v8 _ = V c main_v8 _
  congr 1
  funext a
  apply Fin.ext
  match a with
  | ⟨0, _⟩ => show win1_4.index t (0 : Fin 2) * 64 + 1 * k.val = k.val; rw [e0]; omega
  | ⟨1, _⟩ => show win1_4.index t (1 : Fin 2) * 1 + 1 * 0 = 0; rw [e1]

theorem iblk_b2 (c : Dev nD) (t : Fin cfg1.N) :
    (iblk1 V c 5 t : Vec Ideal S1x1 .f32) (ix2 (0 : Fin 1) (0 : Fin 1)) = (V c main_v9 : S1x1.Idx → EReal) (ix2 (0 : Fin 1) (0 : Fin 1)) := by
  obtain ⟨-, -, -, -, -, -, -, -, -, -, e0, e1, -⟩ := idx_facts t
  unfold iblk1
  rw [View.read_apply]
  show V c main_v9 _ = V c main_v9 _
  congr 1
  funext a
  apply Fin.ext
  match a with
  | ⟨0, _⟩ => show win1_5.index t (0 : Fin 2) * 1 + 1 * 0 = 0; rw [e0]
  | ⟨1, _⟩ => show win1_5.index t (1 : Fin 2) * 1 + 1 * 0 = 0; rw [e1]

/-- WHAT POINT t WRITES BACK is its rows of `G1` of the arrays the region finds. -/
theorem flushed_eq (c : Dev nD) (t : Fin cfg1.N) :
    (dat1 V c).flushed 6 t = ((cfg1.win 6).blk t).view.read (Elt Ideal)
      (G1 (V c main_arg1) (V c main_v31) (V c main_v6) (V c main_v7) (V c main_v8) (V c main_v9)) := by
  show (cfg1.win 6).cut (grid1.coords t) ((dat1 V c).after 6 t) = _
  rw [after1_6]
  unfold out1_6
  rw [View.canon_unit_zero hz]
  simp only [View.ld_unit_zero (S := S8000x128) hz, View.ld_unit_zero (S := S8000x1) hz, View.ld_unit_zero (S := S128x64) hz,
    View.ld_unit_zero (S := S1x64) hz, View.ld_unit_zero (S := S64x1) hz, View.ld_unit_zero (S := S1x1) hz]
  obtain ⟨-, -, -, -, -, -, -, -, -, -, -, -, e0, e1⟩ := idx_facts t
  funext j
  obtain ⟨p, q, rfl⟩ : ∃ (p : Fin 8000) (q : Fin 1), j = ix2 p q := ⟨j 0, j 1, eq_ix2 j⟩
  obtain rfl : q = 0 := Subsingleton.elim _ _
  rw [View.read_apply]
  have hr : ((((cfg1.win 6).blk t).view.emb (ix2 p (0 : Fin 1))) 0).val = 8000 * t.val + p.val := by
    show win1_6.index t (0 : Fin 2) * 8000 + 1 * p.val = _; rw [e0]; omega
  show k1_pay1 (iblk1 V c 0 t) (iblk1 V c 2 t) (iblk1 V c 3 t) (iblk1 V c 4 t) (iblk1 V c 5 t) (iblk1 V c 1 t) (ix2 p (0 : Fin 1)) = _
  refine (pay1_apply (iblk1 V c 0 t) (iblk1 V c 2 t) (iblk1 V c 3 t) (iblk1 V c 4 t) (iblk1 V c 5 t) (iblk1 V c 1 t) p).trans ?_
  unfold G1 rowOut
  have en : (⟨((((cfg1.win 6).blk t).view.emb (ix2 p (0 : Fin 1))) 0).val, idx2_lt0 _⟩ : Fin 1000000)
      = ⟨8000 * t.val + p.val, by have := t_lt t; omega⟩ := Fin.ext hr
  rw [en, iblk_sp V c t p, iblk_b2 V c t]
  refine congrArg (fun z => (z + (V c main_v9 : S1x1.Idx → EReal) (ix2 (0 : Fin 1) (0 : Fin 1)))
    * (V c main_v31 : S1000000x1.Idx → EReal) (ix2 (⟨8000 * t.val + p.val, by have := t_lt t; omega⟩ : Fin 1000000) (0 : Fin 1))) ?_
  refine Finset.sum_congr rfl fun k _ => ?_
  rw [iblk_w2 V c t k, iblk_b1 V c t k]
  refine congrArg (fun z => silu (z + (V c main_v7 : S1x64.Idx → EReal) (ix2 (0 : Fin 1) k)) * (V c main_v8 : S64x1.Idx → EReal) (ix2 k (0 : Fin 1))) ?_
  refine Finset.sum_congr rfl fun l _ => ?_
  rw [iblk_x V c t p l, iblk_w1 V c t l k]

theorem mem_blk (t : Fin cfg1.N) (i : S1000000x1.Idx) :
    i ∈ ((cfg1.win 6).blk t).view.set ↔ ∀ a : Fin 2, win1_6.index t a * S8000x1.size a ≤ (i a).val ∧ (i a).val < win1_6.index t a * S8000x1.size a + S8000x1.size a := by
  show i ∈ ((View.whole main_v32).slice (win1_6.rect t)).set ↔ _
  rw [View.set_slice_whole, Rect.mem_set_unit]
  exact Iff.rfl

/-- Row r is in the block of point r / 8000. -/
theorem cover (i : S1000000x1.Idx) : ∃ t : Fin cfg1.N, (cfg1.win 6).flush t = true ∧ i ∈ ((cfg1.win 6).blk t).view.set := by
  have hi0 : (i 0).val < 1000000 := idx2_lt0 i
  have hi1 : (i 1).val < 1 := idx2_lt1 i
  let t : Fin cfg1.N := ⟨(i 0).val / 8000, by rw [show cfg1.N = 125 from N_1]; omega⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 8000 ≤ (i 0).val ∧ (i 0).val < win1_6.index t (0 : Fin 2) * 8000 + 8000
    rw [e0]; show (i 0).val / 8000 * 8000 ≤ (i 0).val ∧ (i 0).val < (i 0).val / 8000 * 8000 + 8000; omega
  | ⟨1, _⟩ =>
    show win1_6.index t (1 : Fin 2) * 1 ≤ (i 1).val ∧ (i 1).val < win1_6.index t (1 : Fin 2) * 1 + 1
    rw [e1]; omega

/-- THE ARRAY after the region. -/
theorem final (c : Dev nD) : (dat1 V c).arrAt 6 cfg1.N
    = G1 (V c main_arg1) (V c main_v31) (V c main_v6) (V c main_v7) (V c main_v8) (V c main_v9) :=
  (dat1 V c).arrAt_eq_of_cover 6 (G1 (V c main_arg1) (V c main_v31) (V c main_v6) (V c main_v7) (V c main_v8) (V c main_v9))
    (fun t _ => flushed_eq V c t) cover

end Cert.KernelIdeal.Region1

end
-- ==== Proof.HostK.lean ====
/-
  The kernel program's host side, read: what each stretch of host operations leaves in the buffers the two kernels and
  the result depend on, as pure terms of the argument arrays.

  Before the first kernel the atomic numbers are clipped into [0, 118] and laid as a column, and the mass table is
  written into a zero vector of 128 lanes and laid as a row. Between the kernels the first kernel's [N, 4] output is cut
  into its mass column and its mass · position columns; both are summed per molecule, the quotient is the centroid, it
  is gathered back per atom, subtracted from the position, squared and summed over the three coordinates: the spatial
  term (`spatialOf`). After the second kernel its [N, 1] output is summed per molecule: the result.
  No host operation and no kernel writes an argument array, so each reads as launched at every boundary.
-/
import proofs.«428477_j44057774522753_3_alg».proof.Proof.Gen.KernelIdeal.Frame
import proofs.«428477_j44057774522753_3_alg».proof.Proof.Region0
import proofs.«428477_j44057774522753_3_alg».proof.Proof.Region1
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A stretch of host operations leaves a buffer none of them writes as it was. -/
macro "host_skip " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## What the host stretches compute, as functions of the arrays they read -/

/-- The atomic numbers clipped into [0, 118], as a column. -/
def clipCol (a : S1000000.Idx → BitVec 32) : S1000000x1.Idx → BitVec 32 :=
  shapeCast S1000000x1 (minsi (broadcastInDim S1000000 ![] bcast_S_S1000000 (constantI S_ 32 118#32))
    (maxsi (broadcastInDim S1000000 ![] bcast_S_S1000000 (constantI S_ 32 0#32)) a)) shapeCasts_S1000000_S1000000x1

/-- The mass table written into 128 zero lanes. -/
def padded (tb : S119.Idx → EReal) : S128.Idx → EReal :=
  Host.scatter scatter_S128_S1_S119_0_n_0_0 (fun _ b => b) (broadcastInDim S128 ![] bcast_S_S128 (constant (F := Ideal) S_ .f32 0x00000000#32))
    (broadcastInDim S1 ![] bcast_S_S1 (constantI S_ 32 0#32)) tb

/-- … as a row. -/
def paddedRow (tb : S119.Idx → EReal) : S1x128.Idx → EReal := shapeCast S1x128 (padded tb) shapeCasts_S128_S1x128

/-- The squared distance of each atom from its molecule's mass-weighted centroid, as a column: from the mass column, the
    mass · position columns, the positions and the molecule index of each atom. -/
def spatialOf (mcol : S1000000x1.Idx → EReal) (mp : S1000000x3.Idx → EReal) (pos : S1000000x3.Idx → EReal) (batch : S1000000.Idx → BitVec 32) :
    S1000000x1.Idx → EReal :=
  broadcastInDim S1000000x1 ![0] bcast_S1000000_S1000000x1_0
    (Host.reduceAdd (F := Ideal)
      (mulf
        (subf pos (Host.gather gather_S8192x3_S1000000x1_S1000000x3_1_0_n_n_0_1_13
          (Host.divf (F := Ideal)
            (Host.scatterAdd (F := Ideal) scatter_S8192x3_S1000000x1_S1000000x3_1_0_0_1 (broadcastInDim S8192x3 ![] bcast_S_S8192x3 (constant (F := Ideal) S_ .f32 0x00000000#32))
              (broadcastInDim S1000000x1 ![0] bcast_S1000000_S1000000x1_0 batch) mp)
            (broadcastInDim S8192x3 ![0, 1] bcast_S8192x1_S8192x3_0_1
              (Host.scatterAdd (F := Ideal) scatter_S8192x1_S1000000x1_S1000000x1_1_0_0_1 (broadcastInDim S8192x1 ![] bcast_S_S8192x1 (constant (F := Ideal) S_ .f32 0x00000000#32))
                (broadcastInDim S1000000x1 ![0] bcast_S1000000_S1000000x1_0 batch) mcol)))
          (broadcastInDim S1000000x1 ![0] bcast_S1000000_S1000000x1_0
            (select (cmpi .slt batch (broadcastInDim S1000000 ![] bcast_S_S1000000 (constantI S_ 32 0#32)))
              (addi batch (broadcastInDim S1000000 ![] bcast_S_S1000000 (constantI S_ 32 8192#32))) batch))))
        (subf pos (Host.gather gather_S8192x3_S1000000x1_S1000000x3_1_0_n_n_0_1_13
          (Host.divf (F := Ideal)
            (Host.scatterAdd (F := Ideal) scatter_S8192x3_S1000000x1_S1000000x3_1_0_0_1 (broadcastInDim S8192x3 ![] bcast_S_S8192x3 (constant (F := Ideal) S_ .f32 0x00000000#32))
              (broadcastInDim S1000000x1 ![0] bcast_S1000000_S1000000x1_0 batch) mp)
            (broadcastInDim S8192x3 ![0, 1] bcast_S8192x1_S8192x3_0_1
              (Host.scatterAdd (F := Ideal) scatter_S8192x1_S1000000x1_S1000000x1_1_0_0_1 (broadcastInDim S8192x1 ![] bcast_S_S8192x1 (constant (F := Ideal) S_ .f32 0x00000000#32))
                (broadcastInDim S1000000x1 ![0] bcast_S1000000_S1000000x1_0 batch) mcol)))
          (broadcastInDim S1000000x1 ![0] bcast_S1000000_S1000000x1_0
            (select (cmpi .slt batch (broadcastInDim S1000000 ![] bcast_S_S1000000 (constantI S_ 32 0#32)))
              (addi batch (broadcastInDim S1000000 ![] bcast_S_S1000000 (constantI S_ 32 8192#32))) batch)))))
      (constant (F := Ideal) S_ .f32 0x00000000#32) reducesTo_S1000000x3_S1000000_d1 h_S_)

/-- The per-molecule sum of a per-atom column. -/
def molSum (col : S1000000x1.Idx → EReal) (batch : S1000000.Idx → BitVec 32) : S8192x1.Idx → EReal :=
  Host.scatterAdd (F := Ideal) scatter_S8192x1_S1000000x1_S1000000x1_1_0_0_1 (broadcastInDim S8192x1 ![] bcast_S_S8192x1 (constant (F := Ideal) S_ .f32 0x00000000#32))
    (broadcastInDim S1000000x1 ![0] bcast_S1000000_S1000000x1_0 batch) col

/-! ## The buffers the first kernel reads -/

theorem W3_v5 (c : Dev nD) : W3 m ρ c (Proc.devRef .tc main_v5) = clipCol (m ((c : Thread nD τ).loc main_arg8)) := by
  show StableHlo.after hostOps0_2 (StableHlo.after hostOps0_1 (StableHlo.after hostOps0 (W0 m ρ c))) (Proc.devRef .tc main_v5) = _
  after_results
  rfl

theorem W3_v3 (c : Dev nD) : W3 m ρ c (Proc.devRef .tc main_v3) = paddedRow (m ((c : Thread nD τ).loc main_arg2)) := by
  show StableHlo.after hostOps0_2 (StableHlo.after hostOps0_1 (StableHlo.after hostOps0 (W0 m ρ c))) (Proc.devRef .tc main_v3) = _
  after_results
  rfl

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_skip hostOps0_2
    _ = W1 m ρ c (Proc.devRef .tc main_arg0) := by host_skip hostOps0_1
    _ = W0 m ρ c (Proc.devRef .tc main_arg0) := by host_skip hostOps0
    _ = m ((c : Thread nD τ).loc main_arg0) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_skip hostOps0_2
    _ = W1 m ρ c (Proc.devRef .tc main_arg1) := by host_skip hostOps0_1
    _ = W0 m ρ c (Proc.devRef .tc main_arg1) := by host_skip hostOps0
    _ = m ((c : Thread nD τ).loc main_arg1) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_skip hostOps0_2
    _ = W1 m ρ c (Proc.devRef .tc main_arg7) := by host_skip hostOps0_1
    _ = W0 m ρ c (Proc.devRef .tc main_arg7) := by host_skip hostOps0
    _ = m ((c : Thread nD τ).loc main_arg7) := rfl

/-! ## The weights, laid out for the second kernel -/

theorem W3_v6 (c : Dev nD) : W3 m ρ c (Proc.devRef .tc main_v6)
    = transpose S128x64 [1, 0] (m ((c : Thread nD τ).loc main_arg3)) transposes_S64x128_S128x64_1_0 := by
  show StableHlo.after hostOps0_2 (StableHlo.after hostOps0_1 (StableHlo.after hostOps0 (W0 m ρ c))) (Proc.devRef .tc main_v6) = _
  after_results

theorem W3_v7 (c : Dev nD) : W3 m ρ c (Proc.devRef .tc main_v7)
    = shapeCast S1x64 (m ((c : Thread nD τ).loc main_arg4)) shapeCasts_S64_S1x64 := by
  show StableHlo.after hostOps0_2 (StableHlo.after hostOps0_1 (StableHlo.after hostOps0 (W0 m ρ c))) (Proc.devRef .tc main_v7) = _
  after_results
  rfl

theorem W3_v8 (c : Dev nD) : W3 m ρ c (Proc.devRef .tc main_v8)
    = transpose S64x1 [1, 0] (m ((c : Thread nD τ).loc main_arg5)) transposes_S1x64_S64x1_1_0 := by
  show StableHlo.after hostOps0_2 (StableHlo.after hostOps0_1 (StableHlo.after hostOps0 (W0 m ρ c))) (Proc.devRef .tc main_v8) = _
  after_results

theorem W3_v9 (c : Dev nD) : W3 m ρ c (Proc.devRef .tc main_v9)
    = shapeCast S1x1 (m ((c : Thread nD τ).loc main_arg6)) shapeCasts_S1_S1x1 := by
  show StableHlo.after hostOps0_2 (StableHlo.after hostOps0_1 (StableHlo.after hostOps0 (W0 m ρ c))) (Proc.devRef .tc main_v9) = _
  after_results
  rfl

/-! ## After the first kernel -/

theorem W4_v10 (c : Dev nD) : W4 m ρ c (Proc.devRef .tc main_v10)
    = Region0.G0 (clipCol (m ((c : Thread nD τ).loc main_arg8))) (paddedRow (m ((c : Thread nD τ).loc main_arg2))) (m ((c : Thread nD τ).loc main_arg0)) := by
  refine (W4_arr m ρ c 3).trans ((Region0.final (V3 m ρ) c).trans ?_)
  show Region0.G0 (W3 m ρ c (Proc.devRef .tc main_v5)) (W3 m ρ c (Proc.devRef .tc main_v3)) (W3 m ρ c (Proc.devRef .tc main_arg0)) = _
  rw [W3_v5, W3_v3, W3_arg0]

theorem W4_arg0 (c : Dev nD) : W4 m ρ c (Proc.devRef .tc main_arg0) = m ((c : Thread nD τ).loc main_arg0) :=
  ((W4_arr m ρ c 2).trans (((dat0 (V3 m ρ) c).arrAt_in 2 rfl _).trans (A_eq0 (V3 m ρ) c 2))).trans (W3_arg0 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg1 (c : Dev nD) : W4 m ρ c (Proc.devRef .tc main_arg1) = m ((c : Thread nD τ).loc main_arg1) :=
  (W4_of_ne m ρ c main_arg1 (by decide)).trans (W3_arg1 m ρ c)

/-! ## Between the kernels -/

set_option maxHeartbeats 4000000 in
theorem W5_v31 (c : Dev nD) : W5 m ρ c (Proc.devRef .tc main_v31)
    = spatialOf (extractStridedSlice S1000000x1 ![0, 0] (W4 m ρ c (Proc.devRef .tc main_v10)) slices_S1000000x4_S1000000x1_0_0)
        (extractStridedSlice S1000000x3 ![0, 1] (W4 m ρ c (Proc.devRef .tc main_v10)) slices_S1000000x4_S1000000x3_0_1)
        (W4 m ρ c (Proc.devRef .tc main_arg0)) (W4 m ρ c (Proc.devRef .tc main_arg7)) := by
  show StableHlo.after hostOps1 (W4 m ρ c) (Proc.devRef .tc main_v31) = _
  after_results_simp
  rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by host_skip hostOps1
    _ = m ((c : Thread nD τ).loc main_arg1) := W4_arg1 m ρ c

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by host_skip hostOps1
    _ = m ((c : Thread nD τ).loc main_arg7) := W4_arg7 m ρ c

theorem W5_v6 (c : Dev nD) : W5 m ρ c (Proc.devRef .tc main_v6)
    = transpose S128x64 [1, 0] (m ((c : Thread nD τ).loc main_arg3)) transposes_S64x128_S128x64_1_0 :=
  calc W5 m ρ c (Proc.devRef .tc main_v6)
    _ = W4 m ρ c (Proc.devRef .tc main_v6) := by host_skip hostOps1
    _ = W3 m ρ c (Proc.devRef .tc main_v6) := W4_of_ne m ρ c main_v6 (by decide)
    _ = _ := W3_v6 m ρ c

theorem W5_v7 (c : Dev nD) : W5 m ρ c (Proc.devRef .tc main_v7)
    = shapeCast S1x64 (m ((c : Thread nD τ).loc main_arg4)) shapeCasts_S64_S1x64 :=
  calc W5 m ρ c (Proc.devRef .tc main_v7)
    _ = W4 m ρ c (Proc.devRef .tc main_v7) := by host_skip hostOps1
    _ = W3 m ρ c (Proc.devRef .tc main_v7) := W4_of_ne m ρ c main_v7 (by decide)
    _ = _ := W3_v7 m ρ c

theorem W5_v8 (c : Dev nD) : W5 m ρ c (Proc.devRef .tc main_v8)
    = transpose S64x1 [1, 0] (m ((c : Thread nD τ).loc main_arg5)) transposes_S1x64_S64x1_1_0 :=
  calc W5 m ρ c (Proc.devRef .tc main_v8)
    _ = W4 m ρ c (Proc.devRef .tc main_v8) := by host_skip hostOps1
    _ = W3 m ρ c (Proc.devRef .tc main_v8) := W4_of_ne m ρ c main_v8 (by decide)
    _ = _ := W3_v8 m ρ c

theorem W5_v9 (c : Dev nD) : W5 m ρ c (Proc.devRef .tc main_v9)
    = shapeCast S1x1 (m ((c : Thread nD τ).loc main_arg6)) shapeCasts_S1_S1x1 :=
  calc W5 m ρ c (Proc.devRef .tc main_v9)
    _ = W4 m ρ c (Proc.devRef .tc main_v9) := by host_skip hostOps1
    _ = W3 m ρ c (Proc.devRef .tc main_v9) := W4_of_ne m ρ c main_v9 (by decide)
    _ = _ := W3_v9 m ρ c

/-- The spatial column the second kernel reads, as a term of the argument arrays. -/
def spatialK (c : Dev nD) : S1000000x1.Idx → EReal :=
  spatialOf
    (extractStridedSlice S1000000x1 ![0, 0]
      (Region0.G0 (clipCol (m ((c : Thread nD τ).loc main_arg8))) (paddedRow (m ((c : Thread nD τ).loc main_arg2))) (m ((c : Thread nD τ).loc main_arg0)))
      slices_S1000000x4_S1000000x1_0_0)
    (extractStridedSlice S1000000x3 ![0, 1]
      (Region0.G0 (clipCol (m ((c : Thread nD τ).loc main_arg8))) (paddedRow (m ((c : Thread nD τ).loc main_arg2))) (m ((c : Thread nD τ).loc main_arg0)))
      slices_S1000000x4_S1000000x3_0_1)
    (m ((c : Thread nD τ).loc main_arg0)) (m ((c : Thread nD τ).loc main_arg7))

theorem W5_v31' (c : Dev nD) : W5 m ρ c (Proc.devRef .tc main_v31) = spatialK m c := by
  rw [W5_v31, W4_v10, W4_arg0, W4_arg7]
  rfl

/-! ## After the second kernel, and the result -/

theorem W6_v32 (c : Dev nD) : W6 m ρ c (Proc.devRef .tc main_v32)
    = Region1.G1 (m ((c : Thread nD τ).loc main_arg1)) (spatialK m c)
        (transpose S128x64 [1, 0] (m ((c : Thread nD τ).loc main_arg3)) transposes_S64x128_S128x64_1_0)
        (shapeCast S1x64 (m ((c : Thread nD τ).loc main_arg4)) shapeCasts_S64_S1x64)
        (transpose S64x1 [1, 0] (m ((c : Thread nD τ).loc main_arg5)) transposes_S1x64_S64x1_1_0)
        (shapeCast S1x1 (m ((c : Thread nD τ).loc main_arg6)) shapeCasts_S1_S1x1) := by
  refine (W6_arr m ρ c 6).trans ((Region1.final (V5 m ρ) c).trans ?_)
  show Region1.G1 (W5 m ρ c (Proc.devRef .tc main_arg1)) (W5 m ρ c (Proc.devRef .tc main_v31)) (W5 m ρ c (Proc.devRef .tc main_v6))
    (W5 m ρ c (Proc.devRef .tc main_v7)) (W5 m ρ c (Proc.devRef .tc main_v8)) (W5 m ρ c (Proc.devRef .tc main_v9)) = _
  rw [W5_arg1, W5_v31', W5_v6, W5_v7, W5_v8, W5_v9]

theorem W6_arg7 (c : Dev nD) : W6 m ρ c (Proc.devRef .tc main_arg7) = m ((c : Thread nD τ).loc main_arg7) :=
  (W6_of_ne m ρ c main_arg7 (by decide)).trans (W5_arg7 m ρ c)

/-- THE RESULT of the kernel program: the per-molecule sum of the second kernel's output column. -/
theorem W7_v35 (c : Dev nD) : W7 m ρ c (Proc.devRef .tc main_v35)
    = molSum (Region1.G1 (m ((c : Thread nD τ).loc main_arg1)) (spatialK m c)
        (transpose S128x64 [1, 0] (m ((c : Thread nD τ).loc main_arg3)) transposes_S64x128_S128x64_1_0)
        (shapeCast S1x64 (m ((c : Thread nD τ).loc main_arg4)) shapeCasts_S64_S1x64)
        (transpose S64x1 [1, 0] (m ((c : Thread nD τ).loc main_arg5)) transposes_S1x64_S64x1_1_0)
        (shapeCast S1x1 (m ((c : Thread nD τ).loc main_arg6)) shapeCasts_S1_S1x1)) (m ((c : Thread nD τ).loc main_arg7)) := by
  have e : W7 m ρ c (Proc.devRef .tc main_v35) = molSum (W6 m ρ c (Proc.devRef .tc main_v32)) (W6 m ρ c (Proc.devRef .tc main_arg7)) := by
    show StableHlo.after hostOps2 (W6 m ρ c) (Proc.devRef .tc main_v35) = _
    after_results
    rfl
  rw [e, W6_v32, W6_arg7]

end Cert.KernelIdeal.HostK

end
-- ==== Proof.Pad.lean ====
/-
  The padded mass table. The kernel program writes the 119 table entries into a zero vector of 128 lanes with one
  scatter whose body returns the update (a "set") at the single start index 0: update k lands on lane k, no two updates on
  one lane, so lane k < 119 of the result is table entry k (`padded_apply`). The fold over the updates is read through
  two list lemmas: an index no later update lands on keeps its value (`foldl_set_of_not_mem`), and an index exactly one
  update lands on holds that update (`foldl_set_of_mem`).
-/
import proofs.«428477_j44057774522753_3_alg».proof.Proof.Gen.KernelIdeal
import Idealize.ShloMosaic.Lib.ValueIdx

set_option maxRecDepth 16384
noncomputable section
open Idealize.ShloMosaic Idealize.ShloMosaic.ValueIdx
open Cert.KernelIdeal

namespace Cert.KernelIdeal.Pad

section Lists
variable {ι α β : Type} [DecidableEq ι]

/-- One step of a "set" scatter: the update `n` replaces the value at its landing index, when it has one. -/
def setStep (pos : β → Option ι) (val : β → α) (r : ι → α) (n : β) : ι → α :=
  match pos n with
  | some i => fun i' => if i' = i then val n else r i'
  | none => r

theorem setStep_some (pos : β → Option ι) (val : β → α) (r : ι → α) (n : β) (i0 : ι) (h : pos n = some i0) :
    setStep pos val r n = fun i' => if i' = i0 then val n else r i' := by
  unfold setStep; rw [h]

theorem setStep_none (pos : β → Option ι) (val : β → α) (r : ι → α) (n : β) (h : pos n = none) :
    setStep pos val r n = r := by
  unfold setStep; rw [h]

theorem foldl_set_of_not_mem (pos : β → Option ι) (val : β → α) (i : ι) :
    ∀ (l : List β) (x : ι → α), (∀ b ∈ l, pos b ≠ some i) → l.foldl (setStep pos val) x i = x i
  | [], _, _ => rfl
  | n :: l, x, h => by
    rw [List.foldl_cons, foldl_set_of_not_mem pos val i l _ (fun b hb => h b (List.mem_cons_of_mem _ hb))]
    have hn := h n (List.mem_cons_self ..)
    cases hp : pos n with
    | none => rw [setStep_none pos val x n hp]
    | some i0 =>
      rw [setStep_some pos val x n i0 hp]
      have : i ≠ i0 := fun e => hn (by rw [hp, e])
      exact if_neg this

theorem foldl_set_of_mem (pos : β → Option ι) (val : β → α) (i : ι) (b : β) (hpos : pos b = some i) :
    ∀ (l : List β) (x : ι → α), b ∈ l → (∀ b' ∈ l, pos b' = some i → b' = b) → l.foldl (setStep pos val) x i = val b
  | [], _, hb, _ => absurd hb (List.not_mem_nil)
  | n :: l, x, hb, hu => by
    rw [List.foldl_cons]
    by_cases hl : b ∈ l
    · exact foldl_set_of_mem pos val i b hpos l _ hl (fun b' hb' => hu b' (List.mem_cons_of_mem _ hb'))
    · have hbn : b = n := by
        rcases List.mem_cons.mp hb with e | e
        · exact e
        · exact absurd e hl
      subst hbn
      rw [foldl_set_of_not_mem pos val i l _ (fun b' hb' e => hl (by rw [← hu b' (List.mem_cons_of_mem _ hb') e]; exact hb'))]
      rw [setStep_some pos val x b i hpos]
      exact if_pos rfl

end Lists

/-- The start of every update's window is the one start index, zero. -/
theorem start_eq (j : S119.Idx) (idx : IVec S1 32) (h0 : ∀ x, idx x = 0#32) (a : Fin 1) :
    scatter_S128_S1_S119_0_n_0_0.start j idx a = 0 := by
  unfold ScatterDims.start
  split
  · rw [h0]; rfl
  · rfl

/-- The window coordinate of update `j` is its own coordinate. -/
theorem window_eq (j : S119.Idx) (a : Fin 1) : scatter_S128_S1_S119_0_n_0_0.window j a = (j 0).val := by
  have ha : a = 0 := Subsingleton.elim _ _
  subst ha
  unfold ScatterDims.window
  rw [dif_pos (by decide)]
  exact congrArg (fun z : Fin 1 => (j z).val) (Subsingleton.elim _ _)

/-- Update `j` lands on lane `j`. -/
theorem resultIdx_eq (j : S119.Idx) (idx : IVec S1 32) (h0 : ∀ x, idx x = 0#32) :
    scatter_S128_S1_S119_0_n_0_0.resultIdx? j idx = some (ix1 (⟨(j 0).val, by have : (j 0).val < 119 := (j 0).isLt; omega⟩ : Fin 128)) := by
  have hj : (j 0).val < 119 := (j 0).isLt
  unfold ScatterDims.resultIdx?
  rw [dif_pos (fun a => by
    rw [start_eq j idx h0 a, window_eq j a]
    have : S128.size a = 128 := by have ha : a = 0 := Subsingleton.elim _ _; subst ha; rfl
    rw [this]; omega)]
  refine congrArg some (funext fun a => Fin.ext ?_)
  have ha : a = 0 := Subsingleton.elim _ _
  subst ha
  show (scatter_S128_S1_S119_0_n_0_0.start j idx 0 + (scatter_S128_S1_S119_0_n_0_0.window j 0 : Int)).toNat = (j 0).val
  rw [start_eq j idx h0 0, window_eq j 0]
  omega

/-- Lane k < 119 of the padded table is table entry k. -/
theorem padded_apply (x : S128.Idx → EReal) (idx : IVec S1 32) (h0 : ∀ y, idx y = 0#32) (upd : S119.Idx → EReal) (k : Fin 119) :
    Host.scatter scatter_S128_S1_S119_0_n_0_0 (fun _ b => b) x idx upd (ix1 (⟨k.val, by omega⟩ : Fin 128)) = upd (ix1 k) := by
  unfold Host.scatter
  have hnum : S119.numel = 119 := by decide
  let n0 : Fin S119.numel := S119.rowMajor (ix1 k)
  have hsymm : S119.rowMajor.symm n0 = ix1 k := S119.rowMajor.symm_apply_apply _
  have hfold : ∀ (f g : (S128.Idx → EReal) → Fin S119.numel → S128.Idx → EReal), f = g →
      ∀ i, List.foldl f x (List.finRange S119.numel) i = List.foldl g x (List.finRange S119.numel) i := fun f g h i => by rw [h]
  refine (hfold _ (setStep (fun n : Fin S119.numel => scatter_S128_S1_S119_0_n_0_0.resultIdx? (S119.rowMajor.symm n) idx)
    (fun n => upd (S119.rowMajor.symm n))) ?_ _).trans ?_
  · funext r n
    cases hp : scatter_S128_S1_S119_0_n_0_0.resultIdx? (S119.rowMajor.symm n) idx with
    | none => rw [setStep_none _ _ r n hp]
    | some i0 => rw [setStep_some _ _ r n i0 hp]
  refine (foldl_set_of_mem _ _ (ix1 (⟨k.val, by omega⟩ : Fin 128)) n0 ?_ _ x (List.mem_finRange n0) ?_).trans ?_
  · show scatter_S128_S1_S119_0_n_0_0.resultIdx? (S119.rowMajor.symm n0) idx = _
    rw [hsymm, resultIdx_eq (ix1 k) idx h0]
  · intro b' _ hb'
    have hb'' : scatter_S128_S1_S119_0_n_0_0.resultIdx? (S119.rowMajor.symm b') idx = some (ix1 (⟨k.val, by omega⟩ : Fin 128)) := hb'
    rw [resultIdx_eq _ idx h0] at hb''
    have e : ((S119.rowMajor.symm b') 0).val = k.val := by
      have := congrArg (fun z : S128.Idx => (z 0).val) (Option.some.inj hb'')
      exact this
    have e2 : S119.rowMajor.symm b' = ix1 k := by
      funext a
      have ha : a = 0 := Subsingleton.elim _ _
      subst ha
      exact Fin.ext e
    rw [← S119.rowMajor.apply_symm_apply b', e2]
  · show upd (S119.rowMajor.symm n0) = _
    rw [hsymm]

end Cert.KernelIdeal.Pad

end
-- ==== Proof.Masses.lean ====
/-
  The two programs compute the same masses.

  The reference reads the mass table at each atom's number with jnp's indexing: a negative index is wrapped by the table's
  length, and the gather then clamps the start index into the table, so for a non-negative atomic number `a` it reads
  entry `min a 118` (`ref_mass`). The kernel program clips `a` into [0, 118] first (value `min a 118`,
  Words.clip_toNat), compares it with each of 128 lanes and sums `[lane = clip a] · padded lane`: the one lane that
  matches carries the padded table's entry `min a 118`, which — the lane being below 119 — is the table's own entry
  (`kernel_mass`). So column 0 of the first kernel's output is the reference's mass column (`slice_mass`) and columns
  1 to 3 are the reference's mass · position (`slice_mpos`).
-/
import proofs.«428477_j44057774522753_3_alg».proof.Proof.HostK
import proofs.«428477_j44057774522753_3_alg».proof.Proof.Pad
import proofs.«428477_j44057774522753_3_alg».proof.Proof.Words
import proofs.«428477_j44057774522753_3_alg».proof.Proof.Gen.ReferenceIdeal.Read
import Idealize.ShloMosaic.Lib.Pipeline.Value
import Idealize.ShloMosaic.Lib.ValueIdx
import Idealize.ShloMosaic.Lib.StableHlo.Predicate

set_option maxRecDepth 16384

noncomputable section

namespace Cert.Hand.Masses

open Idealize.ShloMosaic Idealize.ShloMosaic.TcCoe Idealize.ShloMosaic.ValueIdx
open Cert.ReferenceIdeal Cert.ReferenceIdeal.Read
open Cert.KernelIdeal.Region0 (G0 massOf G0_col0 G0_col)
open Cert.KernelIdeal.HostK (clipCol padded paddedRow)
open Cert.Hand.Words

theorem ofFin_eq_ix1 {n : Nat} (p : Fin n) : Shape.Idx.ofFin p = ix1 p := by
  funext a; match a with | ⟨0, _⟩ => rfl

/-- The table position both programs read for a non-negative atomic number. -/
def pos118 (w : BitVec 32) : Fin 119 := ⟨min w.toInt.toNat 118, by omega⟩

/-- The reference's mass of atom n. -/
theorem ref_mass (x2 : S119.Idx → EReal) (x8 : S1000000.Idx → BitVec 32) (hnn : ∀ i, 0 ≤ (x8 i).toInt) (n : Fin 1000000) :
    val_main_v6 (F := Ideal) x2 x8 (ix1 n) = x2 (ix1 (pos118 (x8 (ix1 n)))) := by
  unfold val_main_v6
  refine ((congrArg (Host.gather gather_S119_S1000000x1_S1000000_n_0_n_n_0_1_1 x2 (val_main_v5 (F := Ideal) x8)) (ofFin_eq_ix1 n).symm).trans
    (StableHlo.Predicate.gather_take gather_S119_S1000000x1_S1000000_n_0_n_n_0_1_1 rfl rfl rfl rfl x2 (val_main_v5 (F := Ideal) x8) n (by decide))).trans ?_
  rw [ofFin_eq_ix1]
  have e : val_main_v5 (F := Ideal) x8 (StableHlo.Predicate.ixP n) = x8 (ix1 n) := by
    rw [val_main_v5_apply, val_main_v4_apply, val_main_v1_apply, val_main_v3_apply, val_main_v0_apply, val_main_v2_apply,
      val_main_c_apply, val_main_c_0_apply]
    have ei : idx_main_v5 (StableHlo.Predicate.ixP n) = ix1 n := by
      funext a; match a with | ⟨0, _⟩ => rfl
    rw [ei]
    exact wrap_of_nonneg _ (hnn _)
  refine congrArg x2 (congrArg ix1 (Fin.ext ?_))
  show min (val_main_v5 (F := Ideal) x8 (StableHlo.Predicate.ixP n)).toInt.toNat (119 - 1) = min (x8 (ix1 n)).toInt.toNat 118
  rw [e]

/-- The clipped column at row n is the clip of atom n's number. -/
theorem clipCol_apply (x8 : S1000000.Idx → BitVec 32) (n : Fin 1000000) :
    clipCol x8 (ix2 n (0 : Fin 1)) = IntOp.minsi 118#32 (IntOp.maxsi 0#32 (x8 (ix1 n))) := by
  unfold clipCol
  refine (shapeCast_apply _ Cert.KernelIdeal.Gen.shapeCasts_S1000000_S1000000x1 (ix2 n (0 : Fin 1)) (ix1 n) (by
    rw [Shape.rowMajor_val_one, Shape.rowMajor_val_two]
    show n.val = n.val * 1 + 0
    omega)).trans ?_
  rfl

/-- Lane j < 119 of the padded row is the table's entry j. -/
theorem paddedRow_apply (x2 : S119.Idx → EReal) (j : Fin 119) :
    paddedRow x2 (ix2 (0 : Fin 1) (⟨j.val, by omega⟩ : Fin 128)) = x2 (ix1 j) := by
  unfold paddedRow
  refine (shapeCast_apply _ Cert.KernelIdeal.Gen.shapeCasts_S128_S1x128 (ix2 (0 : Fin 1) (⟨j.val, by omega⟩ : Fin 128)) (ix1 (⟨j.val, by omega⟩ : Fin 128)) (by
    rw [Shape.rowMajor_val_one, Shape.rowMajor_val_two]
    show j.val = 0 * 128 + j.val
    omega)).trans ?_
  unfold padded
  exact Cert.KernelIdeal.Pad.padded_apply _ _ (fun _ => rfl) x2 j

/-- The kernel's mass of atom n. -/
theorem kernel_mass (x2 : S119.Idx → EReal) (x8 : S1000000.Idx → BitVec 32) (hnn : ∀ i, 0 ≤ (x8 i).toInt) (n : Fin 1000000) :
    massOf (clipCol x8) (paddedRow x2) n = x2 (ix1 (pos118 (x8 (ix1 n)))) := by
  have hc := clip_toNat (x8 (ix1 n)) (hnn _)
  set cw : BitVec 32 := IntOp.minsi 118#32 (IntOp.maxsi 0#32 (x8 (ix1 n))) with hcw
  have hlt : cw.toNat < 119 := by rw [hc]; omega
  unfold massOf
  rw [clipCol_apply, ← hcw]
  have hs := sum_onehot (⟨cw.toNat, by omega⟩ : Fin 128)
    (fun k : Fin 128 => if BitVec.ofNat 32 k.val = cw then (1 : EReal) else 0)
    (fun k : Fin 128 => paddedRow x2 (ix2 (0 : Fin 1) k)) (fun k => by
      by_cases hk : k = (⟨cw.toNat, by omega⟩ : Fin 128)
      · rw [if_pos hk, if_pos (by rw [hk]; exact BitVec.eq_of_toNat_eq (by rw [BitVec.toNat_ofNat]; exact Nat.mod_eq_of_lt cw.isLt))]
      · rw [if_neg hk, if_neg (fun e => hk (Fin.ext (by
          have := congrArg BitVec.toNat e
          rw [BitVec.toNat_ofNat, Nat.mod_eq_of_lt (by have := k.isLt; omega)] at this
          exact this)))])
  refine hs.trans ?_
  refine (paddedRow_apply x2 ⟨cw.toNat, hlt⟩).trans ?_
  exact congrArg x2 (congrArg ix1 (Fin.ext hc))

/-- Column 0 of the first kernel's output is the reference's mass column. -/
theorem slice_mass (x0 : S1000000x3.Idx → EReal) (x2 : S119.Idx → EReal) (x8 : S1000000.Idx → BitVec 32) (hnn : ∀ i, 0 ≤ (x8 i).toInt) :
    extractStridedSlice Cert.KernelIdeal.S1000000x1 ![0, 0] (G0 (clipCol x8) (paddedRow x2) x0) Cert.KernelIdeal.Gen.slices_S1000000x4_S1000000x1_0_0
      = val_main_v7 (F := Ideal) x2 x8 := by
  funext i
  obtain ⟨n, q, rfl⟩ : ∃ (n : Fin 1000000) (q : Fin 1), i = ix2 n q := ⟨i 0, i 1, eq_ix2 i⟩
  obtain rfl : q = 0 := Subsingleton.elim _ _
  refine (extractStridedSlice_apply _ _ Cert.KernelIdeal.Gen.slices_S1000000x4_S1000000x1_0_0 (ix2 n (0 : Fin 1)) (ix2 n (0 : Fin 4)) (fun a => by
    match a with
    | ⟨0, _⟩ => show n.val = 0 + n.val; omega
    | ⟨1, _⟩ => rfl)).trans ?_
  rw [G0_col0 _ _ _ (ix2 n (0 : Fin 4)) n rfl rfl, kernel_mass x2 x8 hnn n, val_main_v7_apply]
  have ei : idx_main_v7 (ix2 n (0 : Fin 1)) = ix1 n := by
    funext a; match a with | ⟨0, _⟩ => rfl
  rw [ei, ref_mass x2 x8 hnn n]

/-- Columns 1 to 3 of the first kernel's output are the reference's mass · position. -/
theorem slice_mpos (x0 : S1000000x3.Idx → EReal) (x2 : S119.Idx → EReal) (x8 : S1000000.Idx → BitVec 32) (hnn : ∀ i, 0 ≤ (x8 i).toInt) :
    extractStridedSlice Cert.KernelIdeal.S1000000x3 ![0, 1] (G0 (clipCol x8) (paddedRow x2) x0) Cert.KernelIdeal.Gen.slices_S1000000x4_S1000000x3_0_1
      = val_main_v9 (F := Ideal) x0 x2 x8 := by
  funext i
  obtain ⟨n, k, rfl⟩ : ∃ (n : Fin 1000000) (k : Fin 3), i = ix2 n k := ⟨i 0, i 1, eq_ix2 i⟩
  refine (extractStridedSlice_apply _ _ Cert.KernelIdeal.Gen.slices_S1000000x4_S1000000x3_0_1 (ix2 n k) (ix2 n (⟨k.val + 1, by omega⟩ : Fin 4)) (fun a => by
    match a with
    | ⟨0, _⟩ => show n.val = 0 + n.val; omega
    | ⟨1, _⟩ => show k.val + 1 = 1 + k.val; omega)).trans ?_
  rw [G0_col _ _ _ (ix2 n (⟨k.val + 1, by omega⟩ : Fin 4)) n k rfl rfl, kernel_mass x2 x8 hnn n, val_main_v9_apply, val_main_v8_apply, val_main_v7_apply]
  have ei : idx_main_v7 (idx_main_v8 (ix2 n k)) = ix1 n := by
    funext a; match a with | ⟨0, _⟩ => rfl
  rw [ei, ref_mass x2 x8 hnn n]
  rfl

end Cert.Hand.Masses

end
-- ==== Proof.RefG.lean ====
/-
  The reference's perceptron stage is the second kernel's array function.

  Read at row n, the reference's `(silu (x · w1ᵀ + b1) · w2ᵀ + b2)` is
    ∑ₖ h n k · (1 / (1 + e^(−h n k))) · w2 0 k + b2 0,   h n k = ∑ₗ x n l · w1 k l + b1 k,
  its two `dot_general`s the plain sums over the contracted coordinate, its two broadcasts of a bias the bias itself.
  The kernel's row function (`rowOut`) is the same sum over the same terms: its weights arrive transposed and its
  biases reshaped to rows, which read back to the same entries; `x · logistic x` is `x · (1 / (1 + e^(−x)))` by the
  ideal instance's own definition of the logistic, the printed constant 1.0 denoting the real 1. Both are then multiplied
  by the same spatial column.
-/
import proofs.«428477_j44057774522753_3_alg».proof.Proof.Region1
import proofs.«428477_j44057774522753_3_alg».proof.Proof.Gen.ReferenceIdeal.Read
import Idealize.ShloMosaic.Lib.Pipeline.Value
import Idealize.ShloMosaic.Lib.ValueIdx
import Idealize.ShloMosaic.PureOps.IdealRules

set_option maxRecDepth 16384

noncomputable section

namespace Cert.Hand.RefG

open Idealize.ShloMosaic Idealize.ShloMosaic.TcCoe Idealize.ShloMosaic.ValueIdx
open Cert.ReferenceIdeal Cert.ReferenceIdeal.Read
open Cert.KernelIdeal.Region1 (G1 rowOut)
open Cert.KernelIdeal.Mlp (silu)

/-- The printed 1.0 denotes the real one. -/
theorem one_f32 : Ideal.ofBits .f32 0x3F800000#32 = (1 : EReal) := IdealRules.sign_bit.ideal_onePat .f32

/-- jax's expansion of the logistic, as the reference prints it, is the ideal instance's logistic. -/
theorem silu_ref (h : EReal) :
    FloatOps.mulf (F := Ideal) (φ := .f32) h (FloatOps.hostDivf (F := Ideal) (φ := .f32) (FloatOps.ofBits (F := Ideal) .f32 0x3F800000#32)
      (FloatOps.addf (F := Ideal) (φ := .f32) (FloatOps.ofBits (F := Ideal) .f32 0x3F800000#32) (FloatOps.hostUnary (F := Ideal) (φ := .f32) .exp (FloatOps.hostNegf (F := Ideal) (φ := .f32) h))))
      = silu h := by
  unfold silu Ideal.logistic
  simp only [Ideal.mulf_def, Ideal.hostDivf_def, Ideal.addf_def, Ideal.ofBits_def, one_f32]
  rfl

/-- The transposed first-layer weights read back the weights. -/
theorem w1T_apply (x3 : S64x128.Idx → EReal) (l : Fin 128) (k : Fin 64) :
    transpose Cert.KernelIdeal.S128x64 [1, 0] x3 Cert.KernelIdeal.Gen.transposes_S64x128_S128x64_1_0 (ix2 l k) = x3 (ix2 k l) :=
  transpose_apply [1, 0] x3 Cert.KernelIdeal.Gen.transposes_S64x128_S128x64_1_0 (ix2 l k) (ix2 k l) (fun b => by
    match b with
    | ⟨0, _⟩ => rfl
    | ⟨1, _⟩ => rfl)

theorem w2T_apply (x5 : S1x64.Idx → EReal) (k : Fin 64) :
    transpose Cert.KernelIdeal.S64x1 [1, 0] x5 Cert.KernelIdeal.Gen.transposes_S1x64_S64x1_1_0 (ix2 k (0 : Fin 1)) = x5 (ix2 (0 : Fin 1) k) :=
  transpose_apply [1, 0] x5 Cert.KernelIdeal.Gen.transposes_S1x64_S64x1_1_0 (ix2 k (0 : Fin 1)) (ix2 (0 : Fin 1) k) (fun b => by
    match b with
    | ⟨0, _⟩ => rfl
    | ⟨1, _⟩ => rfl)

theorem b1r_apply (x4 : S64.Idx → EReal) (k : Fin 64) :
    shapeCast Cert.KernelIdeal.S1x64 x4 Cert.KernelIdeal.Gen.shapeCasts_S64_S1x64 (ix2 (0 : Fin 1) k) = x4 (ix1 k) :=
  shapeCast_apply x4 Cert.KernelIdeal.Gen.shapeCasts_S64_S1x64 (ix2 (0 : Fin 1) k) (ix1 k) (by
    rw [Shape.rowMajor_val_one, Shape.rowMajor_val_two]
    show k.val = 0 * 64 + k.val
    omega)

theorem b2r_apply (x6 : S1.Idx → EReal) :
    shapeCast Cert.KernelIdeal.S1x1 x6 Cert.KernelIdeal.Gen.shapeCasts_S1_S1x1 (ix2 (0 : Fin 1) (0 : Fin 1)) = x6 (ix1 (0 : Fin 1)) :=
  shapeCast_apply x6 Cert.KernelIdeal.Gen.shapeCasts_S1_S1x1 (ix2 (0 : Fin 1) (0 : Fin 1)) (ix1 (0 : Fin 1)) (by
    rw [Shape.rowMajor_val_one, Shape.rowMajor_val_two]
    rfl)

/-- The reference's hidden pre-activation at (n, k). -/
theorem v30_apply (x1 : S1000000x128.Idx → EReal) (x3 : S64x128.Idx → EReal) (x4 : S64.Idx → EReal) (n : Fin 1000000) (k : Fin 64) :
    val_main_v30 (F := Ideal) x1 x3 x4 (ix2 n k) = ∑ l : Fin 128, x1 (ix2 n l) * x3 (ix2 k l) + x4 (ix1 k) := by
  rw [val_main_v30_apply, val_main_v27_apply, val_main_v29_apply, val_main_v28_apply]
  refine congrArg₂ (· + ·) (Finset.sum_congr rfl fun l _ => ?_) ?_
  · rw [val_main_v26_apply]
    refine congrArg₂ (· * ·) (congrArg x1 ?_) (congrArg x3 ?_)
    · funext a; match a with | ⟨0, _⟩ => rfl | ⟨1, _⟩ => rfl
    · funext a; match a with | ⟨0, _⟩ => rfl | ⟨1, _⟩ => rfl
  · refine congrArg x4 ?_
    funext a; match a with | ⟨0, _⟩ => rfl

/-- The reference's activation at (n, k). -/
theorem v31_apply (x1 : S1000000x128.Idx → EReal) (x3 : S64x128.Idx → EReal) (x4 : S64.Idx → EReal) (n : Fin 1000000) (k : Fin 64) :
    val_main_v31 (F := Ideal) x1 x3 x4 (ix2 n k) = silu (∑ l : Fin 128, x1 (ix2 n l) * x3 (ix2 k l) + x4 (ix1 k)) := by
  rw [val_main_v31_apply, val_main_call0_v5_apply, val_main_call0_v4_apply, val_main_call0_cst_0_apply, val_main_call0_v3_apply,
    val_main_call0_v2_apply, val_main_call0_cst_apply, val_main_call0_v1_apply, val_main_call0_v0_apply, v30_apply]
  exact silu_ref _

/-- THE STAGE: the reference's perceptron output times any spatial column is the kernel's array function of the same
    arrays, the weights transposed and the biases reshaped as the kernel program lays them out. -/
theorem contrib_eq (x1 : S1000000x128.Idx → EReal) (x3 : S64x128.Idx → EReal) (x4 : S64.Idx → EReal) (x5 : S1x64.Idx → EReal)
    (x6 : S1.Idx → EReal) (sp : S1000000x1.Idx → EReal) :
    G1 x1 sp (transpose Cert.KernelIdeal.S128x64 [1, 0] x3 Cert.KernelIdeal.Gen.transposes_S64x128_S128x64_1_0) (shapeCast Cert.KernelIdeal.S1x64 x4 Cert.KernelIdeal.Gen.shapeCasts_S64_S1x64)
        (transpose Cert.KernelIdeal.S64x1 [1, 0] x5 Cert.KernelIdeal.Gen.transposes_S1x64_S64x1_1_0) (shapeCast Cert.KernelIdeal.S1x1 x6 Cert.KernelIdeal.Gen.shapeCasts_S1_S1x1)
      = (mulf (F := Ideal) (s := S1000000x1) (φ := .f32) (val_main_v36 (F := Ideal) x1 x3 x4 x5 x6) sp : S1000000x1.Idx → EReal) := by
  funext i
  obtain ⟨n, q, rfl⟩ : ∃ (n : Fin 1000000) (q : Fin 1), i = ix2 n q := ⟨i 0, i 1, eq_ix2 i⟩
  obtain rfl : q = 0 := Subsingleton.elim _ _
  rw [mulf_apply, val_main_v36_apply, val_main_v33_apply, val_main_v35_apply, val_main_v34_apply]
  unfold G1 rowOut
  have en : (⟨((ix2 n (0 : Fin 1) : S1000000x1.Idx) 0).val, idx2_lt0 _⟩ : Fin 1000000) = n := Fin.ext rfl
  rw [en, b2r_apply]
  refine congrArg₂ (· * ·) (congrArg₂ (· + ·) (Finset.sum_congr rfl fun k _ => ?_) ?_) rfl
  · rw [w2T_apply, b1r_apply, val_main_v32_apply]
    have e1 : lidx_main_v33 (ix2 n (0 : Fin 1)) k = ix2 n k := by
      funext a; match a with | ⟨0, _⟩ => rfl | ⟨1, _⟩ => rfl
    have e2 : idx_main_v32 (ridx_main_v33 (ix2 n (0 : Fin 1)) k) = ix2 (0 : Fin 1) k := by
      funext a; match a with | ⟨0, _⟩ => rfl | ⟨1, _⟩ => rfl
    rw [e1, e2, v31_apply]
    refine congrArg (fun z => silu (z + x4 (ix1 k)) * x5 (ix2 (0 : Fin 1) k)) (Finset.sum_congr rfl fun l _ => ?_)
    rw [w1T_apply]
  · refine congrArg x6 ?_
    funext a; match a with | ⟨0, _⟩ => rfl

end Cert.Hand.RefG

end
-- ==== Proof.Bridge.lean ====
/-
  The kernel program's result is the reference's, as terms of the argument arrays.

  Both programs end with the per-molecule sum of a per-atom column. The kernel program's column is the second kernel's
  array function of the node features, the transposed weights, the reshaped biases and its spatial column; the reference's
  is its perceptron stage times its spatial column. The two perceptron stages are one function (RefG.contrib_eq). The two
  spatial columns are the same host operations — per-molecule sums of the mass column and of mass · position, their quotient
  gathered per atom, the squared distance summed over the coordinates — applied to the two programs' mass column and
  mass · position, which agree when every atomic number is non-negative (Masses.slice_mass, Masses.slice_mpos).
-/
import proofs.«428477_j44057774522753_3_alg».proof.Proof.HostK
import proofs.«428477_j44057774522753_3_alg».proof.Proof.Masses
import proofs.«428477_j44057774522753_3_alg».proof.Proof.RefG
import proofs.«428477_j44057774522753_3_alg».proof.Proof.Gen.ReferenceIdeal.Read

set_option maxRecDepth 16384

noncomputable section

namespace Cert.Hand.Bridge

open Idealize.ShloMosaic Idealize.ShloMosaic.TcCoe Idealize.SL.Sem
open Cert.ReferenceIdeal Cert.ReferenceIdeal.Read
open Cert.KernelIdeal.HostK (spatialOf spatialK molSum clipCol paddedRow)

/-- The reference's spatial column is the shared chain of host operations applied to its mass column and its
    mass · position. -/
theorem spatial_ref (x0 : S1000000x3.Idx → EReal) (x2 : S119.Idx → EReal) (x7 x8 : S1000000.Idx → BitVec 32) :
    val_main_v39 (F := Ideal) x0 x2 x7 x8 = spatialOf (val_main_v7 (F := Ideal) x2 x8) (val_main_v9 (F := Ideal) x0 x2 x8) x0 x7 := rfl

/-- The reference's result is the per-molecule sum of its perceptron stage times its spatial column. -/
theorem result_ref (x0 : S1000000x3.Idx → EReal) (x1 : S1000000x128.Idx → EReal) (x2 : S119.Idx → EReal) (x3 : S64x128.Idx → EReal)
    (x4 : S64.Idx → EReal) (x5 : S1x64.Idx → EReal) (x6 : S1.Idx → EReal) (x7 x8 : S1000000.Idx → BitVec 32) :
    val_main_v43 (F := Ideal) x0 x1 x2 x3 x4 x5 x6 x7 x8
      = molSum (mulf (F := Ideal) (s := S1000000x1) (φ := .f32) (val_main_v36 (F := Ideal) x1 x3 x4 x5 x6) (val_main_v39 (F := Ideal) x0 x2 x7 x8)) x7 := rfl

/-- THE BRIDGE: from any launch memory whose atomic numbers are non-negative, what the kernel program leaves in its result
    buffer is the reference's result term of the same argument arrays. -/
theorem result_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hnn : ∀ i, 0 ≤ ((m ((c.tc : Thread Cert.KernelIdeal.nD Cert.KernelIdeal.τ).loc Cert.KernelIdeal.main_arg8) : S1000000.Idx → BitVec 32) i).toInt) :
    Cert.KernelIdeal.Gen.W7 m ρ c (Proc.devRef .tc Cert.KernelIdeal.main_v35)
      = val_main_v43 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  rw [Cert.KernelIdeal.HostK.W7_v35, result_ref, spatial_ref]
  refine congrArg (fun col => molSum col _) ?_
  refine (Cert.Hand.RefG.contrib_eq _ _ _ _ _ _).trans ?_
  refine congrArg (mulf (F := Ideal) (s := S1000000x1) (φ := .f32) _) ?_
  unfold spatialK
  rw [Cert.Hand.Masses.slice_mass _ _ _ hnn, Cert.Hand.Masses.slice_mpos _ _ _ hnn]

end Cert.Hand.Bridge

end
-- ==== Proof.lean ====
/-
  The certificate of the spatial-extent kernel: a first Pallas kernel that looks each atom's mass up in a table by a
  one-hot lane sum and emits (mass, mass · position); host operations that sum both per molecule, form the mass-weighted
  centroids, gather them back per atom and take the squared distance; a second Pallas kernel that runs a 128 → 64 → 1
  perceptron with x · logistic x on the node features and multiplies by the squared distance; and a last per-molecule
  sum — against the jnp reference that does the same with a table lookup `masses_table[atomic_numbers]`.

  Over the extended reals the two programs agree wherever every atomic number is non-negative (the precondition's
  added conjunct): then the reference's wrap of negative indices is idle, its gather's clamp and the kernel program's
  clip both read table entry `min a 118`, the one-hot lane sum picks exactly that entry (0 · x = 0 and 1 · x = x at
  every extended real), matrix products and sums are the plain finite sums on both sides, changes of float format are
  the identity, and `logistic x` is `1 / (1 + e^(−x))` by definition. No float needs to be finite for any step.

  The frames of the two kernel programs are the generated ones; the reference's is its generated run with the result
  dropped; nothing was rewritten by the ideal pass, so `preserves` is trivial. The value claim sets the kernel program's
  run (the generated frame proof run again with a post that names the result buffer) beside the reference's generated run
  and closes with `Bridge.result_eq`.
-/
import proofs.«428477_j44057774522753_3_alg».proof.Defs
import proofs.«428477_j44057774522753_3_alg».proof.Proof.Gen.Kernel
import proofs.«428477_j44057774522753_3_alg».proof.Proof.Gen.Kernel.Skeleton
import proofs.«428477_j44057774522753_3_alg».proof.Proof.Gen.Kernel.Launch
import proofs.«428477_j44057774522753_3_alg».proof.Proof.Gen.Kernel.Points
import proofs.«428477_j44057774522753_3_alg».proof.Proof.Gen.Kernel.Frame
import proofs.«428477_j44057774522753_3_alg».proof.Proof.Gen.KernelIdeal
import proofs.«428477_j44057774522753_3_alg».proof.Proof.Gen.KernelIdeal.Skeleton
import proofs.«428477_j44057774522753_3_alg».proof.Proof.Gen.KernelIdeal.Launch
import proofs.«428477_j44057774522753_3_alg».proof.Proof.Gen.KernelIdeal.Points
import proofs.«428477_j44057774522753_3_alg».proof.Proof.Gen.KernelIdeal.Frame
import proofs.«428477_j44057774522753_3_alg».proof.Proof.Gen.ReferenceIdeal
import proofs.«428477_j44057774522753_3_alg».proof.Proof.Gen.ReferenceIdeal.Run
import proofs.«428477_j44057774522753_3_alg».proof.Proof.Gen.ReferenceIdeal.Read
import proofs.«428477_j44057774522753_3_alg».proof.Proof.Gen.Pre_finite_inputs
import proofs.«428477_j44057774522753_3_alg».proof.Proof.KRun
import proofs.«428477_j44057774522753_3_alg».proof.Proof.Pre
import proofs.«428477_j44057774522753_3_alg».proof.Proof.Bridge
import Idealize.ShloMosaic.Adequacy
import Idealize.ShloMosaic.Init

noncomputable section

namespace Cert.Proof

open Idealize.ShloMosaic Idealize.SL.Sem

/-- The kernel program at the word level runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, with every atomic number non-negative, both idealized programs run and
    end with the same per-molecule spatial extents. -/
theorem algebraic : Cert.algebraic_KernelIdeal_ReferenceIdeal := by
  intro m ρ m' ρ' hpre hagree
  refine ⟨fun c => Cert.KernelIdeal.Gen.W7 m ρ c (Proc.devRef .tc Cert.KernelIdeal.main_v35), Cert.KernelIdeal.GenRun.run_main m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v43_eq, e0, e1, e2, e3, e4, e5, e6, e7, e8]
  exact (Cert.Hand.Bridge.result_eq m ρ c (fun i => Cert.Hand.Pre.atomic_nonneg _ _ _ _ _ _ _ _ _ (hpre c) i)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
